-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S4096 : Shape := ⟨1, ![4096]⟩
abbrev S64x64 : Shape := ⟨2, ![64, 64]⟩
abbrev S64 : Shape := ⟨1, ![64]⟩
abbrev S256 : Shape := ⟨1, ![256]⟩
abbrev S64x4 : Shape := ⟨2, ![64, 4]⟩
abbrev S4 : Shape := ⟨1, ![4]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_v63 : IVec S_ 1) (main_v67 : IVec S_ 1) : IVec S_ 1 :=
  let main_v68 : IVec S_ 1 := andi main_v63 main_v67
  let main_v69 : IVec S1x1600000 32 := (extractStridedSlice S1x1600000 ![0, 0] · slices_S2x1600000_S1x1600000_0_0) main_arg1
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_c_27 : IVec S_ 1 := constantI S_ 1 1#1
  let main_v73 : IVec S_ 1 := (fun x v => Host.reduce IntOp.andi x v reducesTo_S1600000_S_d0 h_S_) main_v72 main_c_27
  let main_v74 : IVec S_ 1 := andi main_v68 main_v73
  let main_v75 : IVec S1x1600000 32 := (extractStridedSlice S1x1600000 ![0, 0] · slices_S2x1600000_S1x1600000_0_0) main_arg1
  let main_v76 : IVec S1600000 32 := shapeCast S1600000 main_v75 shapeCasts_S1x1600000_S1600000
  let main_c_28 : IVec S_ 32 := constantI S_ 32 100000#32
  let main_v77 : IVec S1600000 32 := broadcastInDim S1600000 ![] bcast_S_S1600000 main_c_28
  let main_v78 : IVec S1600000 1 := cmpi .slt main_v76 main_v77
  let main_c_29 : IVec S_ 1 := constantI S_ 1 1#1
  let main_v79 : IVec S_ 1 := (fun x v => Host.reduce IntOp.andi x v reducesTo_S1600000_S_d0 h_S_) main_v78 main_c_29
  let main_v80 : IVec S_ 1 := andi main_v74 main_v79
  main_v80

def fn_part3 {F : FTy → Type} [FloatOps F] (main_arg1 : IVec S2x1600000 32) (main_arg12 : FVec F S256 .f32) (main_arg13 : FVec F S64x4 .f32) (main_arg14 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S64x4 .f32 := Host.absf main_arg13
  let main_cst_22 : FVec F S_ .f32 := constant S_ .f32 0x7F800000#32
  let main_v60 : FVec F S64x4 .f32 := broadcastInDim S64x4 ![] bcast_S_S64x4 main_cst_22
  let main_v61 : IVec S64x4 1 := cmpf .olt main_v59 main_v60
  let main_c_23 : IVec S_ 1 := constantI S_ 1 1#1
  let main_v62 : IVec S_ 1 := (fun x v => Host.reduce IntOp.andi x v reducesTo_S64x4_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg1 main_v63 main_v67

def fn_part2 {F : FTy → Type} [FloatOps F] (main_arg1 : IVec S2x1600000 32) (main_arg8 : FVec F S4096 .f32) (main_arg9 : FVec F S64x64 .f32) (main_arg10 : FVec F S64 .f32) (main_arg11 : FVec F S256 .f32) (main_arg12 : FVec F S256 .f32) (main_arg13 : FVec F S64x4 .f32) (main_arg14 : FVec F S4 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_v48 main_v49 main_v50

def fn_part1 {F : FTy → Type} [FloatOps F] (main_arg1 : IVec S2x1600000 32) (main_arg5 : FVec F S64x64 .f32) (main_arg6 : FVec F S64 .f32) (main_arg7 : FVec F S4096 .f32) (main_arg8 : FVec F S4096 .f32) (main_arg9 : FVec F S64x64 .f32) (main_arg10 : FVec F S64 .f32) (main_arg11 : FVec F S256 .f32) (main_arg12 : FVec F S256 .f32) (main_arg13 : FVec F S64x4 .f32) (main_arg14 : FVec F S4 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S100000x64 .f32) (main_arg1 : IVec S2x1600000 32) (main_arg2 : FVec F S1600000x1 .f32) (main_arg3 : FVec F S4096 .f32) (main_arg4 : FVec F S4096 .f32) (main_arg5 : FVec F S64x64 .f32) (main_arg6 : FVec F S64 .f32) (main_arg7 : FVec F S4096 .f32) (main_arg8 : FVec F S4096 .f32) (main_arg9 : FVec F S64x64 .f32) (main_arg10 : FVec F S64 .f32) (main_arg11 : FVec F S256 .f32) (main_arg12 : FVec F S256 .f32) (main_arg13 : FVec F S64x4 .f32) (main_arg14 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S4096 : Shape := ⟨1, ![4096]⟩
abbrev S64x64 : Shape := ⟨2, ![64, 64]⟩
abbrev S64 : Shape := ⟨1, ![64]⟩
abbrev S256 : Shape := ⟨1, ![256]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1 : Shape := ⟨1, ![1]⟩
abbrev S1x1 : Shape := ⟨2, ![1, 1]⟩
abbrev S1600000x64 : Shape := ⟨2, ![1600000, 64]⟩
abbrev S10000x64 : Shape := ⟨2, ![10000, 64]⟩
abbrev S10000x1 : Shape := ⟨2, ![10000, 1]⟩
abbrev S1x64 : Shape := ⟨2, ![1, 64]⟩
abbrev S1600000x4 : Shape := ⟨2, ![1600000, 4]⟩
abbrev S10000x4 : Shape := ⟨2, ![10000, 4]⟩
abbrev S100000x4 : Shape := ⟨2, ![100000, 4]⟩
abbrev S1x4 : Shape := ⟨2, ![1, 4]⟩
abbrev S10000 : Shape := ⟨1, ![10000]⟩

abbrev nBuf : Space → Nat
  | .hbm => 115
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S4096, .f32⟩
  | .hbm, ⟨4, _⟩ => ⟨S4096, .f32⟩
  | .hbm, ⟨5, _⟩ => ⟨S64x64, .f32⟩
  | .hbm, ⟨6, _⟩ => ⟨S64, .f32⟩
  | .hbm, ⟨7, _⟩ => ⟨S4096, .f32⟩
  | .hbm, ⟨8, _⟩ => ⟨S4096, .f32⟩
  | .hbm, ⟨9, _⟩ => ⟨S64x64, .f32⟩
  | .hbm, ⟨10, _⟩ => ⟨S64, .f32⟩
  | .hbm, ⟨11, _⟩ => ⟨S256, .f32⟩
  | .hbm, ⟨12, _⟩ => ⟨S256, .f32⟩
  | .hbm, ⟨13, _⟩ => ⟨S64x4, .f32⟩
  | .hbm, ⟨14, _⟩ => ⟨S4, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S64x64, .f32⟩
  | .hbm, ⟨20, _⟩ => ⟨S64x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x64, .f32⟩
  | .hbm, ⟨40, _⟩ => ⟨S1600000x64, .i1⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S64x64, .f32⟩
  | .hbm, ⟨52, _⟩ => ⟨S64x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1, .i32⟩
  | .hbm, ⟨62, _⟩ => ⟨S_, .i32⟩
  | .hbm, ⟨63, _⟩ => ⟨S1600000x1, .i32⟩
  | .hbm, ⟨64, _⟩ => ⟨S1600000x1, .i1⟩
  | .hbm, ⟨65, _⟩ => ⟨S1x1, .i32⟩
  | .hbm, ⟨66, _⟩ => ⟨S1600000x1, .i32⟩
  | .hbm, ⟨67, _⟩ => ⟨S1600000x1, .i1⟩
  | .hbm, ⟨68, _⟩ => ⟨S1600000x1, .i1⟩
  | .hbm, ⟨69, _⟩ => ⟨S_, .i1⟩
  | .hbm, ⟨70, _⟩ => ⟨S1600000, .i1⟩
  | .hbm, ⟨71, _⟩ => ⟨S1600000x64, .f32⟩
  | .hbm, ⟨72, _⟩ => ⟨S1600000x64, .i1⟩
  | .hbm, ⟨73, _⟩ => ⟨S_, .f32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S64x4, .f32⟩
  | .hbm, ⟨84, _⟩ => ⟨S64x4, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1, .i32⟩
  | .hbm, ⟨94, _⟩ => ⟨S_, .i32⟩
  | .hbm, ⟨95, _⟩ => ⟨S1600000x1, .i32⟩
  | .hbm, ⟨96, _⟩ => ⟨S1600000x1, .i1⟩
  | .hbm, ⟨97, _⟩ => ⟨S1x1, .i32⟩
  | .hbm, ⟨98, _⟩ => ⟨S1600000x1, .i32⟩
  | .hbm, ⟨99, _⟩ => ⟨S1600000x1, .i1⟩
  | .hbm, ⟨100, _⟩ => ⟨S1600000x1, .i1⟩
  | .hbm, ⟨101, _⟩ => ⟨S_, .i1⟩
  | .hbm, ⟨102, _⟩ => ⟨S1600000, .i1⟩
  | .hbm, ⟨103, _⟩ => ⟨S1600000x64, .f32⟩
  | .hbm, ⟨104, _⟩ => ⟨S1600000x64, .i1⟩
  | .hbm, ⟨105, _⟩ => ⟨S_, .f32⟩
  | .hbm, ⟨106, _⟩ => ⟨S1600000x64, .f32⟩
  | .hbm, ⟨107, _⟩ => ⟨S1600000x64, .f32⟩
  | .hbm, ⟨108, _⟩ => ⟨S1600000x4, .f32⟩
  | .hbm, ⟨109, _⟩ => ⟨S_, .f32⟩
  | .hbm, ⟨110, _⟩ => ⟨S100000x4, .f32⟩
  | .hbm, ⟨111, _⟩ => ⟨S1600000x1, .i32⟩
  | .hbm, ⟨112, _⟩ => ⟨S100000x4, .f32⟩
  | .hbm, ⟨113, _⟩ => ⟨S1x4, .f32⟩
  | .hbm, ⟨114, _⟩ => ⟨S100000x4, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S64x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S64x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .f32⟩
  | .local _ .vmem, ⟨35, _⟩ => ⟨S10000x1, .f32⟩
  | .local _ .vmem, ⟨36, _⟩ => ⟨S64x4, .f32⟩
  | .local _ .vmem, ⟨37, _⟩ => ⟨S64x4, .f32⟩
  | .local _ .vmem, ⟨38, _⟩ => ⟨S10000x4, .f32⟩
  | .local _ .vmem, ⟨39, _⟩ => ⟨S10000x4, .f32⟩
  | .local _ .vmem, ⟨40, _⟩ => ⟨S10000x64, .f32⟩
  | .local _ .vmem, ⟨41, _⟩ => ⟨S10000x64, .f32⟩
  | .local _ .vmem, ⟨42, _⟩ => ⟨S64x4, .f32⟩
  | .local _ .vmem, ⟨43, _⟩ => ⟨S1x4, .f32⟩
  | .local _ .vmem, ⟨44, _⟩ => ⟨S10000x4, .f32⟩
  | .local _ .vmem, ⟨45, _⟩ => ⟨S10000x4, .f32⟩
  | .local _ .vmem, ⟨46, _⟩ => ⟨S10000x4, .f32⟩
  | .local _ .vmem, ⟨47, _⟩ => ⟨S10000x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v6 : Ref sig .tc := ⟨.hbm, 43, rfl⟩
abbrev main_v7 : Ref sig .tc := ⟨.hbm, 44, rfl⟩
abbrev main_cst : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v15 : Ref sig .tc := ⟨.hbm, 75, rfl⟩
abbrev main_v16 : Ref sig .tc := ⟨.hbm, 76, rfl⟩
abbrev main_cst_0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v24 : Ref sig .tc := ⟨.hbm, 107, rfl⟩
abbrev main_v25 : Ref sig .tc := ⟨.hbm, 108, rfl⟩
abbrev main_cst_1 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x4 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x4 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x4 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10000x4 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S4096_S64x64 : S4096.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S256_S64x4 : S256.ShapeCasts S64x4
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S10000x1_S10000x4 : S10000x1.Broadcasts S10000x4
  inb_S10000x4_S10000x4_0_0 : ∀ a, (![0, 0] : Fin 2 → Nat) a + S10000x4.size a ≤ S10000x4.size a
  h_S10000x4 : 0 < S10000x4.numel
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  reduces_S10000x4_S10000 : S10000x4.Reduces [1] S10000
  shapeCasts_S10000_S10000x1 : S10000.ShapeCasts S10000x1
  gather_S100000x64_S1600000x1_S1600000x64_1_0_n_n_0_1_164_wf : GatherDims.WF S100000x64 S1600000x1 S1600000x64 [1] [0] [] [0] [] 1 ![1, 64]
  dot_S10000x64_S64x64_S10000x64_1_0_0_1_n_n_wf : DotDims.WF S10000x64 S64x64 S10000x64 [1] [0] [0] [1] [] []
  scatter_S100000x64_S1600000x1_S1600000x64_1_0_0_1_wf : ScatterDims.WF S100000x64 S1600000x1 S1600000x64 [1] [0] [0] 1
  dot_S10000x64_S64x4_S10000x4_1_0_0_1_n_n_wf : DotDims.WF S10000x64 S64x4 S10000x4 [1] [0] [0] [1] [] []
  scatter_S100000x4_S1600000x1_S1600000x4_1_0_0_1_wf : ScatterDims.WF S100000x4 S1600000x1 S1600000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1600000x1.size a
  hwx0_1 : ∀ i : grid0.Coords, EltTy.bits .f32 = 32 ∨ (Rect.block (s := S1600000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1600000x64.size a
  hwx0_4 : ∀ i : grid0.Coords, EltTy.bits .f32 = 32 ∨ (Rect.block (s := S1600000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1600000x64.size a
  hwx2_0 : ∀ i : grid2.Coords, EltTy.bits .f32 = 32 ∨ (Rect.block (s := S1600000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1600000x1.size a
  hwx2_1 : ∀ i : grid2.Coords, EltTy.bits .f32 = 32 ∨ (Rect.block (s := S1600000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S1600000x64.size a
  hwx2_4 : ∀ i : grid2.Coords, EltTy.bits .f32 = 32 ∨ (Rect.block (s := S1600000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1600000x64.size a
  hwx4_0 : ∀ i : grid4.Coords, EltTy.bits .f32 = 32 ∨ (Rect.block (s := S1600000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1600000x1.size a
  hwx4_1 : ∀ i : grid4.Coords, EltTy.bits .f32 = 32 ∨ (Rect.block (s := S1600000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x4.size a ≤ S64x4.size a
  hwx4_2 : ∀ i : grid4.Coords, EltTy.bits .f32 = 32 ∨ (Rect.block (s := S64x4) S64x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x4.size a ≤ S64x4.size a
  hwx4_3 : ∀ i : grid4.Coords, EltTy.bits .f32 = 32 ∨ (Rect.block (s := S64x4) S64x4.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x4.size a ≤ S1600000x4.size a
  hwx4_4 : ∀ i : grid4.Coords, EltTy.bits .f32 = 32 ∨ (Rect.block (s := S1600000x4) S10000x4.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x4.size a ≤ S64x4.size a
  hwx5_1 : ∀ i : grid5.Coords, EltTy.bits .f32 = 32 ∨ (Rect.block (s := S64x4) S64x4.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x4.size a ≤ S1x4.size a
  hwx5_2 : ∀ i : grid5.Coords, EltTy.bits .f32 = 32 ∨ (Rect.block (s := S1x4) S1x4.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x4.size a ≤ S100000x4.size a
  hwx5_3 : ∀ i : grid5.Coords, EltTy.bits .f32 = 32 ∨ (Rect.block (s := S100000x4) S10000x4.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x4.size a ≤ S100000x4.size a
  hwx5_4 : ∀ i : grid5.Coords, EltTy.bits .f32 = 32 ∨ (Rect.block (s := S100000x4) S10000x4.size (cc5_transform_4 i) (hinb5_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S10000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v24) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S64x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S64x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v25) S10000x4.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v21) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S64x4.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S1x4.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v28) S10000x4.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v30) S10000x4.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S4096 : Shape := ⟨1, ![4096]⟩
abbrev S64x64 : Shape := ⟨2, ![64, 64]⟩
abbrev S64 : Shape := ⟨1, ![64]⟩
abbrev S256 : Shape := ⟨1, ![256]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x64 : Shape := ⟨2, ![1600000, 64]⟩
abbrev S1x64 : Shape := ⟨2, ![1, 64]⟩
abbrev S1600000x4 : Shape := ⟨2, ![1600000, 4]⟩
abbrev S100000x4 : Shape := ⟨2, ![100000, 4]⟩
abbrev S1x4 : Shape := ⟨2, ![1, 4]⟩
abbrev S100000 : Shape := ⟨1, ![100000]⟩
abbrev S100000x1 : Shape := ⟨2, ![100000, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S4096, .f32⟩
  | .hbm, ⟨4, _⟩ => ⟨S4096, .f32⟩
  | .hbm, ⟨5, _⟩ => ⟨S64x64, .f32⟩
  | .hbm, ⟨6, _⟩ => ⟨S64, .f32⟩
  | .hbm, ⟨7, _⟩ => ⟨S4096, .f32⟩
  | .hbm, ⟨8, _⟩ => ⟨S4096, .f32⟩
  | .hbm, ⟨9, _⟩ => ⟨S64x64, .f32⟩
  | .hbm, ⟨10, _⟩ => ⟨S64, .f32⟩
  | .hbm, ⟨11, _⟩ => ⟨S256, .f32⟩
  | .hbm, ⟨12, _⟩ => ⟨S256, .f32⟩
  | .hbm, ⟨13, _⟩ => ⟨S64x4, .f32⟩
  | .hbm, ⟨14, _⟩ => ⟨S4, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S64x64, .f32⟩
  | .hbm, ⟨20, _⟩ => ⟨S64x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S64x4, .f32⟩
  | .hbm, ⟨76, _⟩ => ⟨S64x4, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x4, .f32⟩
  | .hbm, ⟨87, _⟩ => ⟨S1600000x4, .f32⟩
  | .hbm, ⟨88, _⟩ => ⟨S1600000x4, .f32⟩
  | .hbm, ⟨89, _⟩ => ⟨S1600000x4, .f32⟩
  | .hbm, ⟨90, _⟩ => ⟨S1600000x4, .f32⟩
  | .hbm, ⟨91, _⟩ => ⟨S_, .f32⟩
  | .hbm, ⟨92, _⟩ => ⟨S100000x4, .f32⟩
  | .hbm, ⟨93, _⟩ => ⟨S1600000x1, .i32⟩
  | .hbm, ⟨94, _⟩ => ⟨S100000x4, .f32⟩
  | .hbm, ⟨95, _⟩ => ⟨S100000x4, .f32⟩
  | .hbm, ⟨96, _⟩ => ⟨S100000x4, .f32⟩
  | .hbm, ⟨97, _⟩ => ⟨S1x4, .f32⟩
  | .hbm, ⟨98, _⟩ => ⟨S100000x4, .f32⟩
  | .hbm, ⟨99, _⟩ => ⟨S100000x4, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x4, .f32⟩
  | .hbm, ⟨107, _⟩ => ⟨S100000x4, .f32⟩
  | .hbm, ⟨108, _⟩ => ⟨S100000x4, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x4, .f32⟩
  | .hbm, ⟨114, _⟩ => ⟨S100000x4, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_1 : Ref sig .tc := ⟨.hbm, 49, rfl⟩
abbrev main_v29 : Ref sig .tc := ⟨.hbm, 50, rfl⟩
abbrev main_v30 : Ref sig .tc := ⟨.hbm, 51, rfl⟩
abbrev main_c_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_4 : Ref sig .tc := ⟨.hbm, 77, rfl⟩
abbrev main_v52 : Ref sig .tc := ⟨.hbm, 78, rfl⟩
abbrev main_v53 : Ref sig .tc := ⟨.hbm, 79, rfl⟩
abbrev main_c_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_call2_cst_0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_cst_1 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_v72 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S4096_S64x64 : S4096.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S256_S64x4 : S256.ShapeCasts S64x4
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1600000x64_S64x4_S1600000x4_1_0_0_1_n_n_wf : DotDims.WF S1600000x64 S64x4 S1600000x4 [1] [0] [0] [1] [] []
  scatter_S100000x4_S1600000x1_S1600000x4_1_0_0_1_wf : ScatterDims.WF S100000x4 S1600000x1 S1600000x4 [1] [0] [0] 1
  dot_S100000x64_S64x4_S100000x4_1_0_0_1_n_n_wf : DotDims.WF S100000x64 S64x4 S100000x4 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x4_S1600000x4_1_0_0_1_n_n : DotDims S1600000x64 S64x4 S1600000x4 where
  lhsContracting := [1]
  rhsContracting := [0]
  lhsNonContracting := [0]
  rhsNonContracting := [1]
  lhsBatch := []
  rhsBatch := []
  wf := dot_S1600000x64_S64x4_S1600000x4_1_0_0_1_n_n_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.KParts.lean ====
/-
  The host-side pieces of the kernel's program, named once: the two rows of the edge list, jnp's wrap of negative
  indices, the rows of a node array read at every edge's source (plain, and as `jnp.take` computes it: behind a mask
  that replaces a row whose index is out of range by a fill value), and the sum of an edge array's rows into their
  target nodes. Each is spelled as the program's own host operations compute it.
-/
import proofs.«429120_j77498389889734_1_alg».proof.KernelIdeal
import proofs.«429120_j77498389889734_1_alg».proof.Proof.Gen.KernelIdeal
import Idealize.ShloMosaic.PureOps.Ideal

noncomputable section

namespace Cert.KernelIdeal.Parts

open Idealize.ShloMosaic Cert.KernelIdeal Cert.KernelIdeal.Facts₀

/-- Row 0 of the edge list: every edge's source node. -/
def src (ei : IVec S2x1600000 32) : IVec S1600000 32 :=
  shapeCast S1600000 (extractStridedSlice S1x1600000 ![0, 0] ei slices_S2x1600000_S1x1600000_0_0) shapeCasts_S1x1600000_S1600000

/-- Row 1 of the edge list: every edge's target node. -/
def dst (ei : IVec S2x1600000 32) : IVec S1600000 32 :=
  shapeCast S1600000 (extractStridedSlice S1x1600000 ![1, 0] ei slices_S2x1600000_S1x1600000_1_0) shapeCasts_S1x1600000_S1600000

/-- A negative index counts from the end: s + 100000 where s < 0, else s. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped source indices as the one-column array of start indices the gather takes. -/
def idx (ei : IVec S2x1600000 32) : IVec S1600000x1 32 :=
  broadcastInDim S1600000x1 ![0] bcast_S1600000_S1600000x1_0 (wrap (src ei))

/-- Per edge: is its wrapped source index inside [0, 99999]? -/
def inb (ei : IVec S2x1600000 32) : IVec S1600000 1 :=
  Host.reduce IntOp.andi
    (andi (cmpi .sge (idx ei) (broadcastInDim S1600000x1 ![] bcast_S_S1600000x1 (constantI S_ 32 0#32)))
      (cmpi .sle (idx ei) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of a node array at every edge's source (the host gather; it clamps a start index into range). -/
def gat (ei : IVec S2x1600000 32) (x : FVec Ideal S100000x64 .f32) : FVec Ideal S1600000x64 .f32 :=
  Host.gather gather_S100000x64_S1600000x1_S1600000x64_1_0_n_n_0_1_164 x (idx ei)

/-- The same rows as `jnp.take` returns them: the gathered row where the index is in range, the fill value elsewhere. -/
def take (ei : IVec S2x1600000 32) (x : FVec Ideal S100000x64 .f32) : FVec Ideal S1600000x64 .f32 :=
  select (broadcastInDim S1600000x64 ![0] bcast_S1600000_S1600000x64_0 (inb ei)) (gat ei x)
    (broadcastInDim S1600000x64 ![] bcast_S_S1600000x64 (constant S_ .f32 0x7FC00000#32))

/-- The rows of an edge array summed into their target nodes, at the hidden width. -/
def sca (ei : IVec S2x1600000 32) (u : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst ei)) u

/-- The same at the output width. -/
def sca' (ei : IVec S2x1600000 32) (u : FVec Ideal S1600000x4 .f32) : FVec Ideal S100000x4 .f32 :=
  Host.scatterAdd scatter_S100000x4_S1600000x1_S1600000x4_1_0_0_1
    (broadcastInDim S100000x4 ![] bcast_S_S100000x4 (constant S_ .f32 0x00000000#32))
    (broadcastInDim S1600000x1 ![0] bcast_S1600000_S1600000x1_0 (dst ei)) u

/-- Every source index lies in [0, 100000). -/
def InRange (ei : IVec S2x1600000 32) : Prop :=
  ∀ i : S1600000.Idx, cmpi .sge (src ei) (broadcastInDim S1600000 ![] bcast_S_S1600000 (constantI S_ 32 0#32)) i = 1#1
    ∧ cmpi .slt (src ei) (broadcastInDim S1600000 ![] bcast_S_S1600000 (constantI S_ 32 100000#32)) i = 1#1

end Cert.KernelIdeal.Parts

end
-- ==== Proof.TakeRead.lean ====
/-
  The host operations of `jnp.take`, read as one function: over any contents of the buffers, the stretch leaves in its
  result buffer the masked gather of the rows it reads, at the source indices it reads.
-/
import proofs.«429120_j77498389889734_1_alg».proof.Proof.Gen.KernelIdeal.Launch
import proofs.«429120_j77498389889734_1_alg».proof.Proof.KParts
import Idealize.ShloMosaic.Lib.StableHlo.Run

set_option maxRecDepth 16384
set_option maxHeartbeats 4000000

noncomputable section

namespace Cert.KernelIdeal.TakeRead

open Idealize.ShloMosaic Idealize.ShloMosaic.TcCoe Idealize.SL.Sem
open Idealize.ShloMosaic.StableHlo
open Cert.KernelIdeal Cert.KernelIdeal.Gen Cert.KernelIdeal.Parts

/-- Contents carried to a buffer's own type and back are the contents. -/
theorem ofBuf_toBuf {T : BufTy} (x : TRef sig T) (v : T.Contents (Elt Ideal)) : x.ofBuf (x.toBuf v) = v := by
  obtain ⟨r, h, h2, h3⟩ := x
  subst h
  rfl

/-- `jnp.take` of the rows `x` at the source indices `s`: wrap, range test, gather, select. -/
def takeS (s : IVec S1600000 32) (x : FVec Ideal S100000x64 .f32) : FVec Ideal S1600000x64 .f32 :=
  select
    (broadcastInDim S1600000x64 ![0] Facts₀.bcast_S1600000_S1600000x64_0
      (Host.reduce IntOp.andi
        (andi
          (cmpi .sge (broadcastInDim S1600000x1 ![0] Facts₀.bcast_S1600000_S1600000x1_0 (wrap s))
            (broadcastInDim S1600000x1 ![] Facts₀.bcast_S_S1600000x1 (constantI S_ 32 0#32)))
          (cmpi .sle (broadcastInDim S1600000x1 ![0] Facts₀.bcast_S1600000_S1600000x1_0 (wrap s))
            (broadcastInDim S1600000x1 ![0, 1] Facts₀.bcast_S1x1_S1600000x1_0_1
              (broadcastInDim S1x1 ![1] Facts₀.bcast_S1_S1x1_1 (constantI S1 32 99999#32)))))
        (constantI S_ 1 1#1) Facts₀.reducesTo_S1600000x1_S1600000_d1 Facts₀.h_S_))
    (Host.gather gather_S100000x64_S1600000x1_S1600000x64_1_0_n_n_0_1_164 x
      (broadcastInDim S1600000x1 ![0] Facts₀.bcast_S1600000_S1600000x1_0 (wrap s)))
    (broadcastInDim S1600000x64 ![] Facts₀.bcast_S_S1600000x64 (constant S_ .f32 0x7FC00000#32))

/-- At the edge list's first row it is `Parts.take`. -/
theorem takeS_src (ei : IVec S2x1600000 32) (x : FVec Ideal S100000x64 .f32) : takeS (src ei) x = take ei x := rfl

open Lean.Parser.Tactic in
/-- Read a buffer at a boundary: each host operation's result at its own buffer is its function's value, at any other
    buffer what was there; the extra lemmas say what a launch leaves. -/
macro "reads" "[" ls:simpLemma,* "]" : tactic =>
  `(tactic| simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      unaryIndexed_result_ne', binaryIndexed_result_ne', $ls,*])

/-- The stretch of the first `jnp.take`: whatever the buffers hold before it, its result buffer holds afterwards the
    masked gather of the rows in `main_arg0` at the source indices in `main_v1`. -/
theorem take_read0 (F : Valuation τ sig (Elt Ideal)) :
    StableHlo.after hostOps0_1 F (Proc.devRef .tc main_v6)
      = (TRef.of main_v6 : TRef sig ⟨S1600000x64, .f32⟩).toBuf
          (takeS ((TRef.of main_v1 : TRef sig ⟨S1600000, .i32⟩).ofBuf (F (Proc.devRef .tc main_v1)))
            ((TRef.of main_arg0 : TRef sig ⟨S100000x64, .f32⟩).ofBuf (F (Proc.devRef .tc main_arg0)))) := by
  reads []
  simp only [ofBuf_toBuf]
  rfl

/-- The stretch of the second `jnp.take`: whatever the buffers hold before it, its result buffer holds afterwards the
    masked gather of the rows in `main_v12` at the source indices in `main_v1`. -/
theorem take_read1 (F : Valuation τ sig (Elt Ideal)) :
    StableHlo.after hostOps2_1 F (Proc.devRef .tc main_v15)
      = (TRef.of main_v15 : TRef sig ⟨S1600000x64, .f32⟩).toBuf
          (takeS ((TRef.of main_v1 : TRef sig ⟨S1600000, .i32⟩).ofBuf (F (Proc.devRef .tc main_v1)))
            ((TRef.of main_v12 : TRef sig ⟨S100000x64, .f32⟩).ofBuf (F (Proc.devRef .tc main_v12)))) := by
  reads []
  simp only [ofBuf_toBuf]
  rfl

/-- The stretch of the third `jnp.take`: whatever the buffers hold before it, its result buffer holds afterwards the
    masked gather of the rows in `main_v21` at the source indices in `main_v1`. -/
theorem take_read2 (F : Valuation τ sig (Elt Ideal)) :
    StableHlo.after hostOps4_1 F (Proc.devRef .tc main_v24)
      = (TRef.of main_v24 : TRef sig ⟨S1600000x64, .f32⟩).toBuf
          (takeS ((TRef.of main_v1 : TRef sig ⟨S1600000, .i32⟩).ofBuf (F (Proc.devRef .tc main_v1)))
            ((TRef.of main_v21 : TRef sig ⟨S100000x64, .f32⟩).ofBuf (F (Proc.devRef .tc main_v21)))) := by
  reads []
  simp only [ofBuf_toBuf]
  rfl

end Cert.KernelIdeal.TakeRead

end
-- ==== Proof.Spec.lean ====
/-
  The mathematics both programs compute, stated once, index by index, on the extended reals.

  One edge-conditioned layer over a graph: every edge e carries a scalar a(e) and reads the feature row x[src e] of
  its source node; its message is  a(e) · (x[src e] · Wm) + x[src e] · Bm  (two plain matrix products with the row);
  the messages are summed into their target nodes, and a node's new feature row is that sum plus  x[i] · Wr  plus a
  bias row. Between layers the rows pass through max(·, 0); after the last one each row is replaced by its
  log-softmax,  y − max_q y_q − log Σ_q exp (y_q − max_q y_q).

  The gather of source rows and the sum into target nodes are the same host operations in both programs; they are
  parameters here, never opened. Everything is stated over arrays of literal rank 2 with free extents, so that one
  definition serves a block of rows and the whole array alike.
-/
import Idealize.ShloMosaic.PureOps.Ideal.Laws
import Idealize.ShloMosaic.Lib.ValueIdx

noncomputable section

open scoped BigOperators

namespace Cert.Spec

open Idealize.ShloMosaic Idealize.ShloMosaic.ValueIdx

variable {E K N : Nat}

/-- The plain product of an [E × K] array with a [K × N] array: entry (p, q) is the sum over k of l(p, k) · r(k, q). -/
def mm (l : (⟨2, ![E, K]⟩ : Shape).Idx → EReal) (r : (⟨2, ![K, N]⟩ : Shape).Idx → EReal) :
    (⟨2, ![E, N]⟩ : Shape).Idx → EReal :=
  fun j => ∑ k : Fin K, l (ix2 (j 0) k) * r (ix2 k (j 1))

/-- The messages of a layer: row p of `xj` is the source row of edge p, `a` its scalar (a one-column array):
    entry (p, q) is  a(p) · (xj · wm)(p, q) + (xj · bm)(p, q). -/
def msg (xj : (⟨2, ![E, K]⟩ : Shape).Idx → EReal) (a : (⟨2, ![E, 1]⟩ : Shape).Idx → EReal)
    (wm bm : (⟨2, ![K, N]⟩ : Shape).Idx → EReal) : (⟨2, ![E, N]⟩ : Shape).Idx → EReal :=
  fun j => a (ix2 (j 0) 0) * mm xj wm j + mm xj bm j

/-- A node's row before the nonlinearity: the summed messages, plus the row times the root weight, plus the bias
    (a vector, one entry per column): entry (p, q) is  (agg(p, q) + (x · w)(p, q)) + b(q). -/
def lin (agg : (⟨2, ![E, N]⟩ : Shape).Idx → EReal) (x : (⟨2, ![E, K]⟩ : Shape).Idx → EReal)
    (w : (⟨2, ![K, N]⟩ : Shape).Idx → EReal) (b : (⟨1, ![N]⟩ : Shape).Idx → EReal) :
    (⟨2, ![E, N]⟩ : Shape).Idx → EReal :=
  fun j => (agg j + mm x w j) + b (ix1 (j 1))

/-- The rectifier, entry by entry. -/
def relu (y : (⟨2, ![E, N]⟩ : Shape).Idx → EReal) : (⟨2, ![E, N]⟩ : Shape).Idx → EReal :=
  fun j => max (y j) 0

/-- The largest entry of row p, as the fold of max from −∞ over the row. -/
def rowmax (y : (⟨2, ![E, N]⟩ : Shape).Idx → EReal) (p : Fin E) : EReal :=
  (Finset.univ : Finset (Fin N)).fold max ⊥ (fun q => y (ix2 p q))

/-- The log-softmax of each row: entry (p, q) is  (y(p, q) − M) − log Σ_r exp (y(p, r) − M)  with M the row's largest
    entry. -/
def lsm (y : (⟨2, ![E, N]⟩ : Shape).Idx → EReal) : (⟨2, ![E, N]⟩ : Shape).Idx → EReal :=
  fun j => (y j - rowmax y (j 0)) - Ideal.log (∑ r : Fin N, Ideal.exp (y (ix2 (j 0) r) - rowmax y (j 0)))

end Cert.Spec

end
-- ==== Proof.Net.lean ====
/-
  The three-layer network as one function of its arguments, over the shared specification.

  `gat` (the rows of a node array read at every edge's source) and `sca`/`sca'` (the sum of an edge array's rows into
  their target nodes, at the hidden and at the output width) are whatever the host computes for them: both programs
  apply the same host operations there, so they stay parameters and are never opened.
-/
import proofs.«429120_j77498389889734_1_alg».proof.Proof.Spec

noncomputable section

namespace Cert.Net

open Idealize.ShloMosaic Idealize.ShloMosaic.ValueIdx

variable {Nn Ne K N : Nat}

/-- One layer before its nonlinearity: gather the source rows, form the messages, sum them into the nodes, add the
    root term and the bias. -/
def layer (gat : ((⟨2, ![Nn, K]⟩ : Shape).Idx → EReal) → ((⟨2, ![Ne, K]⟩ : Shape).Idx → EReal))
    (sca : ((⟨2, ![Ne, N]⟩ : Shape).Idx → EReal) → ((⟨2, ![Nn, N]⟩ : Shape).Idx → EReal))
    (x : (⟨2, ![Nn, K]⟩ : Shape).Idx → EReal) (a : (⟨2, ![Ne, 1]⟩ : Shape).Idx → EReal)
    (wm bm wr : (⟨2, ![K, N]⟩ : Shape).Idx → EReal) (b : (⟨1, ![N]⟩ : Shape).Idx → EReal) :
    (⟨2, ![Nn, N]⟩ : Shape).Idx → EReal :=
  Spec.lin (sca (Spec.msg (gat x) a wm bm)) x wr b

/-- Two rectified layers of width K, then a layer of width N followed by the row-wise log-softmax. -/
def net (gat : ((⟨2, ![Nn, K]⟩ : Shape).Idx → EReal) → ((⟨2, ![Ne, K]⟩ : Shape).Idx → EReal))
    (sca : ((⟨2, ![Ne, K]⟩ : Shape).Idx → EReal) → ((⟨2, ![Nn, K]⟩ : Shape).Idx → EReal))
    (sca' : ((⟨2, ![Ne, N]⟩ : Shape).Idx → EReal) → ((⟨2, ![Nn, N]⟩ : Shape).Idx → EReal))
    (x : (⟨2, ![Nn, K]⟩ : Shape).Idx → EReal) (a : (⟨2, ![Ne, 1]⟩ : Shape).Idx → EReal)
    (wm1 bm1 wr1 : (⟨2, ![K, K]⟩ : Shape).Idx → EReal) (b1 : (⟨1, ![K]⟩ : Shape).Idx → EReal)
    (wm2 bm2 wr2 : (⟨2, ![K, K]⟩ : Shape).Idx → EReal) (b2 : (⟨1, ![K]⟩ : Shape).Idx → EReal)
    (wm3 bm3 wr3 : (⟨2, ![K, N]⟩ : Shape).Idx → EReal) (b3 : (⟨1, ![N]⟩ : Shape).Idx → EReal) :
    (⟨2, ![Nn, N]⟩ : Shape).Idx → EReal :=
  Spec.lsm (layer gat sca'
    (Spec.relu (layer gat sca (Spec.relu (layer gat sca x a wm1 bm1 wr1 b1)) a wm2 bm2 wr2 b2)) a wm3 bm3 wr3 b3)

end Cert.Net

end
-- ==== Proof.ThreadBase.lean ====
/-
  The kernel's program, boundary by boundary: the names of the arguments and of the value at every boundary, how a
  buffer is read through a launch it does not belong to, and what each launch is assumed to leave in its output array.
-/
import proofs.«429120_j77498389889734_1_alg».proof.Proof.Gen.KernelIdeal.Frame
import proofs.«429120_j77498389889734_1_alg».proof.Proof.KParts
import proofs.«429120_j77498389889734_1_alg».proof.Proof.TakeRead
import proofs.«429120_j77498389889734_1_alg».proof.Proof.Net
import Idealize.ShloMosaic.Lib.StableHlo.Run
import Idealize.ShloMosaic.Lib.Pipeline.Value
import Idealize.ShloMosaic.Lib.ValueIdx
import Idealize.ShloMosaic.Lib.ValueLayout

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

/-- The contents of every buffer of the TensorCore, per device: what a launch is stated over. -/
abbrev Contents : Type := (c : Dev nD) → (b : Ref sig .tc) → Buf (Elt Ideal) ((c : Thread nD τ).loc b)

variable (m : (ℓ : Loc nD τ sig) → Buf (Elt Ideal) ℓ) (ρ : Dev nD → PrngReg) (c : Dev nD)

open Lean.Parser.Tactic in
/-- Read a buffer at a boundary: each host operation's result at its own buffer is its function's value, at any other
    buffer what was there; the extra lemmas say what a launch leaves. -/
macro "reads" "[" ls:simpLemma,* "]" : tactic =>
  `(tactic| simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      unaryIndexed_result_ne', binaryIndexed_result_ne', $ls,*])

/-! ## What a launch leaves outside its own arrays, and in an input array a later launch reads again -/

theorem W3_ne (b : Ref sig .tc) (hb : ∀ w, Pipeline.arrRef spec0 w ≠ b) :
    W3 m ρ c (no_index (Proc.devRef .tc b)) = W2 m ρ c (Proc.devRef .tc b) := W3_of_ne m ρ c b hb
theorem W5_ne (b : Ref sig .tc) (hb : ∀ w, Pipeline.arrRef spec1 w ≠ b) :
    W5 m ρ c (no_index (Proc.devRef .tc b)) = W4 m ρ c (Proc.devRef .tc b) := W5_of_ne m ρ c b hb
theorem W8_ne (b : Ref sig .tc) (hb : ∀ w, Pipeline.arrRef spec2 w ≠ b) :
    W8 m ρ c (no_index (Proc.devRef .tc b)) = W7 m ρ c (Proc.devRef .tc b) := W8_of_ne m ρ c b hb
theorem W10_ne (b : Ref sig .tc) (hb : ∀ w, Pipeline.arrRef spec3 w ≠ b) :
    W10 m ρ c (no_index (Proc.devRef .tc b)) = W9 m ρ c (Proc.devRef .tc b) := W10_of_ne m ρ c b hb
theorem W13_ne (b : Ref sig .tc) (hb : ∀ w, Pipeline.arrRef spec4 w ≠ b) :
    W13 m ρ c (no_index (Proc.devRef .tc b)) = W12 m ρ c (Proc.devRef .tc b) := W13_of_ne m ρ c b hb

/-- The edge scalars are an input window of launches 0 and 2 and are read again later: a launch leaves an input array as it found it. -/
theorem W3_arg2 : W3 m ρ c (no_index (Proc.devRef .tc main_arg2)) = W2 m ρ c (Proc.devRef .tc main_arg2) :=
  (W3_arr m ρ c 1).trans (((dat0 (V2 m ρ) c).arrAt_in 1 rfl _).trans (A_eq0 (V2 m ρ) c 1))
theorem W8_arg2 : W8 m ρ c (no_index (Proc.devRef .tc main_arg2)) = W7 m ρ c (Proc.devRef .tc main_arg2) :=
  (W8_arr m ρ c 1).trans (((dat2 (V7 m ρ) c).arrAt_in 1 rfl _).trans (A_eq2 (V7 m ρ) c 1))

/-! ## The arguments, and the value at every boundary -/

/-- The edge list. -/
def ei : IVec S2x1600000 32 := (m ((c.tc : Thread nD τ).loc main_arg1) :)
/-- The node rows @main starts from. -/
def x0 : FVec Ideal S100000x64 .f32 := (m ((c.tc : Thread nD τ).loc main_arg0) :)
/-- The edge scalars. -/
def ea : FVec Ideal S1600000x1 .f32 := (m ((c.tc : Thread nD τ).loc main_arg2) :)
def wm1 : FVec Ideal S64x64 .f32 := shapeCast S64x64 (m ((c.tc : Thread nD τ).loc main_arg3) :) Facts₀.shapeCasts_S4096_S64x64
def bm1 : FVec Ideal S64x64 .f32 := shapeCast S64x64 (m ((c.tc : Thread nD τ).loc main_arg4) :) Facts₀.shapeCasts_S4096_S64x64
def wr1 : FVec Ideal S64x64 .f32 := (m ((c.tc : Thread nD τ).loc main_arg5) :)
def b1 : FVec Ideal S64 .f32 := (m ((c.tc : Thread nD τ).loc main_arg6) :)
def wm2 : FVec Ideal S64x64 .f32 := shapeCast S64x64 (m ((c.tc : Thread nD τ).loc main_arg7) :) Facts₀.shapeCasts_S4096_S64x64
def bm2 : FVec Ideal S64x64 .f32 := shapeCast S64x64 (m ((c.tc : Thread nD τ).loc main_arg8) :) Facts₀.shapeCasts_S4096_S64x64
def wr2 : FVec Ideal S64x64 .f32 := (m ((c.tc : Thread nD τ).loc main_arg9) :)
def b2 : FVec Ideal S64 .f32 := (m ((c.tc : Thread nD τ).loc main_arg10) :)
def wm3 : FVec Ideal S64x4 .f32 := shapeCast S64x4 (m ((c.tc : Thread nD τ).loc main_arg11) :) Facts₀.shapeCasts_S256_S64x4
def bm3 : FVec Ideal S64x4 .f32 := shapeCast S64x4 (m ((c.tc : Thread nD τ).loc main_arg12) :) Facts₀.shapeCasts_S256_S64x4
def wr3 : FVec Ideal S64x4 .f32 := (m ((c.tc : Thread nD τ).loc main_arg13) :)
def b3 : FVec Ideal S4 .f32 := (m ((c.tc : Thread nD τ).loc main_arg14) :)

/-- The first layer's messages (what launch 0 leaves). -/
def M1 : FVec Ideal S1600000x64 .f32 :=
  Spec.msg (E := 1600000) (K := 64) (N := 64) (take (ei m c) (x0 m c)) (ea m c) (wm1 m c) (bm1 m c)
/-- The node rows after the first layer (what launch 1 leaves). -/
def H1 : FVec Ideal S100000x64 .f32 :=
  Spec.relu (Spec.lin (E := 100000) (K := 64) (N := 64) (sca (ei m c) (M1 m c)) (x0 m c) (wr1 m c) (b1 m c))
/-- The second layer's messages (launch 2). -/
def M2 : FVec Ideal S1600000x64 .f32 :=
  Spec.msg (E := 1600000) (K := 64) (N := 64) (take (ei m c) (H1 m c)) (ea m c) (wm2 m c) (bm2 m c)
/-- The node rows after the second layer (launch 3). -/
def H2 : FVec Ideal S100000x64 .f32 :=
  Spec.relu (Spec.lin (E := 100000) (K := 64) (N := 64) (sca (ei m c) (M2 m c)) (H1 m c) (wr2 m c) (b2 m c))
/-- The output layer's messages (launch 4). -/
def M3 : FVec Ideal S1600000x4 .f32 :=
  Spec.msg (E := 1600000) (K := 64) (N := 4) (take (ei m c) (H2 m c)) (ea m c) (wm3 m c) (bm3 m c)
/-- The result (launch 5). -/
def OUT : FVec Ideal S100000x4 .f32 :=
  Spec.lsm (Spec.lin (E := 100000) (K := 64) (N := 4) (sca' (ei m c) (M3 m c)) (H2 m c) (wr3 m c) (b3 m c))

/-- The result is the three-layer network of the arguments. -/
theorem OUT_eq_net : OUT m c = Net.net (Nn := 100000) (Ne := 1600000) (K := 64) (N := 4)
    (take (ei m c)) (sca (ei m c)) (sca' (ei m c)) (x0 m c) (ea m c)
    (wm1 m c) (bm1 m c) (wr1 m c) (b1 m c) (wm2 m c) (bm2 m c) (wr2 m c) (b2 m c) (wm3 m c) (bm3 m c) (wr3 m c) (b3 m c) := rfl

/-- A bias vector laid out as a one-row array and read back along that row is the vector. -/
theorem bias_row {a : ℕ} (x : (⟨1, ![a]⟩ : Shape).Idx → EReal) (h : (⟨1, ![a]⟩ : Shape).ShapeCasts ⟨2, ![1, a]⟩) :
    (fun q : (⟨1, ![a]⟩ : Shape).Idx => shapeCast ⟨2, ![1, a]⟩ x h (ix2 0 (q 0))) = x := by
  funext q
  exact (shapeCast_a_1a_apply x h 0 (q 0)).trans (congrArg x (eq_ix1 q).symm)

/-! ## What each launch leaves, as a hypothesis on the arrays it finds -/

def HF0 : Prop := ∀ (V : Contents) (c : Dev nD), (dat0 (F := Ideal) V c).arrAt 4 cfg0.N
  = Spec.msg (E := 1600000) (K := 64) (N := 64) (V c main_v6) (V c main_arg2) (V c main_v4) (V c main_v5)
def HF1 : Prop := ∀ (V : Contents) (c : Dev nD), (dat1 (F := Ideal) V c).arrAt 4 cfg1.N
  = Spec.relu (Spec.lin (E := 100000) (K := 64) (N := 64) (V c main_v10) (V c main_arg0) (V c main_arg5)
      (fun q => V c main_v11 (ix2 0 (q 0))))
def HF2 : Prop := ∀ (V : Contents) (c : Dev nD), (dat2 (F := Ideal) V c).arrAt 4 cfg2.N
  = Spec.msg (E := 1600000) (K := 64) (N := 64) (V c main_v15) (V c main_arg2) (V c main_v13) (V c main_v14)
def HF3 : Prop := ∀ (V : Contents) (c : Dev nD), (dat3 (F := Ideal) V c).arrAt 4 cfg3.N
  = Spec.relu (Spec.lin (E := 100000) (K := 64) (N := 64) (V c main_v19) (V c main_v12) (V c main_arg9)
      (fun q => V c main_v20 (ix2 0 (q 0))))
def HF4 : Prop := ∀ (V : Contents) (c : Dev nD), (dat4 (F := Ideal) V c).arrAt 4 cfg4.N
  = Spec.msg (E := 1600000) (K := 64) (N := 4) (V c main_v24) (V c main_arg2) (V c main_v22) (V c main_v23)
def HF5 : Prop := ∀ (V : Contents) (c : Dev nD), (dat5 (F := Ideal) V c).arrAt 4 cfg5.N
  = Spec.lsm (Spec.lin (E := 100000) (K := 64) (N := 4) (V c main_v28) (V c main_v21) (V c main_arg13)
      (fun q => V c main_v29 (ix2 0 (q 0))))

end Cert.KernelIdeal.Thread

end
-- ==== Proof.Thread1.lean ====
/-
  Launch 0: it finds the taken rows of the node array, the edge scalars and the two reshaped weight vectors, and leaves the
  first layer's messages.
-/
import proofs.«429120_j77498389889734_1_alg».proof.Proof.ThreadBase

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W3_v7 (hf0 : HF0) : W3 m ρ c (no_index (Proc.devRef .tc main_v7)) = M1 m c := by
  refine (W3_arr m ρ c 4).trans ?_
  rw [hf0 (V2 m ρ) c]
  have e_main_v6 : (V2 m ρ c main_v6 : _) = take (ei m c) (x0 m c) := by
    show StableHlo.after hostOps0_1 (W1 m ρ c) (Proc.devRef .tc main_v6) = _
    rw [TakeRead.take_read0 (W1 m ρ c)]
    have hs : (TRef.of main_v1 : TRef sig ⟨S1600000, .i32⟩).ofBuf (W1 m ρ c (Proc.devRef .tc main_v1)) = src (ei m c) := by
      refine (eq_of_heq (cast_heq _ _)).trans ?_
      reads []
      all_goals rfl
    have hx : (TRef.of main_arg0 : TRef sig ⟨S100000x64, .f32⟩).ofBuf (W1 m ρ c (Proc.devRef .tc main_arg0)) = x0 m c := by
      refine (eq_of_heq (cast_heq _ _)).trans ?_
      reads []
      all_goals rfl
    rw [hs, hx, TakeRead.takeS_src]
    exact eq_of_heq (cast_heq _ _)
  have e_main_arg2 : (V2 m ρ c main_arg2 : _) = ea m c := by
    show StableHlo.after hostOps0_1 (W1 m ρ c) (Proc.devRef .tc main_arg2) = _
    reads []
    all_goals rfl
  have e_main_v4 : (V2 m ρ c main_v4 : _) = wm1 m c := by
    show StableHlo.after hostOps0_1 (W1 m ρ c) (Proc.devRef .tc main_v4) = _
    reads []
    all_goals rfl
  have e_main_v5 : (V2 m ρ c main_v5 : _) = bm1 m c := by
    show StableHlo.after hostOps0_1 (W1 m ρ c) (Proc.devRef .tc main_v5) = _
    reads []
    all_goals rfl
  rw [e_main_v6, e_main_arg2, e_main_v4, e_main_v5]
  rfl

end Cert.KernelIdeal.Thread

end
-- ==== Proof.Thread2.lean ====
/-
  Launch 1: it finds the messages summed into the nodes, the node rows, the root weight and the bias row, and leaves the
  rectified rows of the first layer.
-/
import proofs.«429120_j77498389889734_1_alg».proof.Proof.Thread1

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W5_v12 (hf0 : HF0) (hf1 : HF1) : W5 m ρ c (no_index (Proc.devRef .tc main_v12)) = H1 m c := by
  refine (W5_arr m ρ c 4).trans ?_
  rw [hf1 (V4 m ρ) c]
  have e_main_v10 : (V4 m ρ c main_v10 : _) = sca (ei m c) (M1 m c) := by
    show StableHlo.after hostOps1 (W3 m ρ c) (Proc.devRef .tc main_v10) = _
    reads [W3_ne, W3_v7 m ρ c hf0]
    all_goals rfl
  have e_main_arg0 : (V4 m ρ c main_arg0 : _) = x0 m c := by
    show StableHlo.after hostOps1 (W3 m ρ c) (Proc.devRef .tc main_arg0) = _
    reads [W3_ne]
    all_goals rfl
  have e_main_arg5 : (V4 m ρ c main_arg5 : _) = wr1 m c := by
    show StableHlo.after hostOps1 (W3 m ρ c) (Proc.devRef .tc main_arg5) = _
    reads [W3_ne]
    all_goals rfl
  have e_main_v11 : (V4 m ρ c main_v11 : _) = shapeCast S1x64 (b1 m c) Facts₀.shapeCasts_S64_S1x64 := by
    show StableHlo.after hostOps1 (W3 m ρ c) (Proc.devRef .tc main_v11) = _
    reads [W3_ne]
    all_goals rfl
  rw [e_main_v10, e_main_arg0, e_main_arg5, e_main_v11, bias_row]
  rfl

end Cert.KernelIdeal.Thread

end
-- ==== Proof.Thread3.lean ====
/-
  Launch 2: the second layer's messages, from the rows taken from the first layer's output.
-/
import proofs.«429120_j77498389889734_1_alg».proof.Proof.Thread2

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W8_v16 (hf0 : HF0) (hf1 : HF1) (hf2 : HF2) : W8 m ρ c (no_index (Proc.devRef .tc main_v16)) = M2 m c := by
  refine (W8_arr m ρ c 4).trans ?_
  rw [hf2 (V7 m ρ) c]
  have e_main_v15 : (V7 m ρ c main_v15 : _) = take (ei m c) (H1 m c) := by
    show StableHlo.after hostOps2_1 (W6 m ρ c) (Proc.devRef .tc main_v15) = _
    rw [TakeRead.take_read1 (W6 m ρ c)]
    have hs : (TRef.of main_v1 : TRef sig ⟨S1600000, .i32⟩).ofBuf (W6 m ρ c (Proc.devRef .tc main_v1)) = src (ei m c) := by
      refine (eq_of_heq (cast_heq _ _)).trans ?_
      reads [W3_ne, W5_ne]
      all_goals rfl
    have hx : (TRef.of main_v12 : TRef sig ⟨S100000x64, .f32⟩).ofBuf (W6 m ρ c (Proc.devRef .tc main_v12)) = H1 m c := by
      refine (eq_of_heq (cast_heq _ _)).trans ?_
      reads [W3_ne, W5_ne, W5_v12 m ρ c hf0 hf1]
      all_goals rfl
    rw [hs, hx, TakeRead.takeS_src]
    exact eq_of_heq (cast_heq _ _)
  have e_main_arg2 : (V7 m ρ c main_arg2 : _) = ea m c := by
    show StableHlo.after hostOps2_1 (W6 m ρ c) (Proc.devRef .tc main_arg2) = _
    reads [W3_ne, W5_ne, W3_arg2]
    all_goals rfl
  have e_main_v13 : (V7 m ρ c main_v13 : _) = wm2 m c := by
    show StableHlo.after hostOps2_1 (W6 m ρ c) (Proc.devRef .tc main_v13) = _
    reads [W3_ne, W5_ne]
    all_goals rfl
  have e_main_v14 : (V7 m ρ c main_v14 : _) = bm2 m c := by
    show StableHlo.after hostOps2_1 (W6 m ρ c) (Proc.devRef .tc main_v14) = _
    reads [W3_ne, W5_ne]
    all_goals rfl
  rw [e_main_v15, e_main_arg2, e_main_v13, e_main_v14]
  rfl

end Cert.KernelIdeal.Thread

end
-- ==== Proof.Thread4.lean ====
/-
  Launch 3: the second node update.
-/
import proofs.«429120_j77498389889734_1_alg».proof.Proof.Thread3

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W10_v21 (hf0 : HF0) (hf1 : HF1) (hf2 : HF2) (hf3 : HF3) : W10 m ρ c (no_index (Proc.devRef .tc main_v21)) = H2 m c := by
  refine (W10_arr m ρ c 4).trans ?_
  rw [hf3 (V9 m ρ) c]
  have e_main_v19 : (V9 m ρ c main_v19 : _) = sca (ei m c) (M2 m c) := by
    show StableHlo.after hostOps3 (W8 m ρ c) (Proc.devRef .tc main_v19) = _
    reads [W3_ne, W5_ne, W8_ne, W8_v16 m ρ c hf0 hf1 hf2]
    all_goals rfl
  have e_main_v12 : (V9 m ρ c main_v12 : _) = H1 m c := by
    show StableHlo.after hostOps3 (W8 m ρ c) (Proc.devRef .tc main_v12) = _
    reads [W3_ne, W5_ne, W8_ne, W5_v12 m ρ c hf0 hf1]
    all_goals rfl
  have e_main_arg9 : (V9 m ρ c main_arg9 : _) = wr2 m c := by
    show StableHlo.after hostOps3 (W8 m ρ c) (Proc.devRef .tc main_arg9) = _
    reads [W3_ne, W5_ne, W8_ne]
    all_goals rfl
  have e_main_v20 : (V9 m ρ c main_v20 : _) = shapeCast S1x64 (b2 m c) Facts₀.shapeCasts_S64_S1x64 := by
    show StableHlo.after hostOps3 (W8 m ρ c) (Proc.devRef .tc main_v20) = _
    reads [W3_ne, W5_ne, W8_ne]
    all_goals rfl
  rw [e_main_v19, e_main_v12, e_main_arg9, e_main_v20, bias_row]
  rfl

end Cert.KernelIdeal.Thread

end
-- ==== Proof.Thread5.lean ====
/-
  Launch 4: the output layer's messages, from the rows taken from the second layer's output.
-/
import proofs.«429120_j77498389889734_1_alg».proof.Proof.Thread4

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W13_v25 (hf0 : HF0) (hf1 : HF1) (hf2 : HF2) (hf3 : HF3) (hf4 : HF4) : W13 m ρ c (no_index (Proc.devRef .tc main_v25)) = M3 m c := by
  refine (W13_arr m ρ c 4).trans ?_
  rw [hf4 (V12 m ρ) c]
  have e_main_v24 : (V12 m ρ c main_v24 : _) = take (ei m c) (H2 m c) := by
    show StableHlo.after hostOps4_1 (W11 m ρ c) (Proc.devRef .tc main_v24) = _
    rw [TakeRead.take_read2 (W11 m ρ c)]
    have hs : (TRef.of main_v1 : TRef sig ⟨S1600000, .i32⟩).ofBuf (W11 m ρ c (Proc.devRef .tc main_v1)) = src (ei m c) := by
      refine (eq_of_heq (cast_heq _ _)).trans ?_
      reads [W3_ne, W5_ne, W8_ne, W10_ne]
      all_goals rfl
    have hx : (TRef.of main_v21 : TRef sig ⟨S100000x64, .f32⟩).ofBuf (W11 m ρ c (Proc.devRef .tc main_v21)) = H2 m c := by
      refine (eq_of_heq (cast_heq _ _)).trans ?_
      reads [W3_ne, W5_ne, W8_ne, W10_ne, W10_v21 m ρ c hf0 hf1 hf2 hf3]
      all_goals rfl
    rw [hs, hx, TakeRead.takeS_src]
    exact eq_of_heq (cast_heq _ _)
  have e_main_arg2 : (V12 m ρ c main_arg2 : _) = ea m c := by
    show StableHlo.after hostOps4_1 (W11 m ρ c) (Proc.devRef .tc main_arg2) = _
    reads [W3_ne, W5_ne, W8_ne, W10_ne, W3_arg2, W8_arg2]
    all_goals rfl
  have e_main_v22 : (V12 m ρ c main_v22 : _) = wm3 m c := by
    show StableHlo.after hostOps4_1 (W11 m ρ c) (Proc.devRef .tc main_v22) = _
    reads [W3_ne, W5_ne, W8_ne, W10_ne]
    all_goals rfl
  have e_main_v23 : (V12 m ρ c main_v23 : _) = bm3 m c := by
    show StableHlo.after hostOps4_1 (W11 m ρ c) (Proc.devRef .tc main_v23) = _
    reads [W3_ne, W5_ne, W8_ne, W10_ne]
    all_goals rfl
  rw [e_main_v24, e_main_arg2, e_main_v22, e_main_v23]
  rfl

end Cert.KernelIdeal.Thread

end
-- ==== Proof.Thread6.lean ====
/-
  Launch 5 leaves the result: the last boundary holds the network's value in the result buffer.
-/
import proofs.«429120_j77498389889734_1_alg».proof.Proof.Thread5

set_option maxRecDepth 65536
set_option maxHeartbeats 8000000
set_option Elab.async false

noncomputable section

namespace Cert.KernelIdeal.Thread

open Idealize.ShloMosaic Idealize.ShloMosaic.TcCoe Idealize.SL.Sem Idealize.ShloMosaic.ValueIdx
open Idealize.ShloMosaic.StableHlo
open Cert.KernelIdeal Cert.KernelIdeal.Gen Cert.KernelIdeal.Parts

variable (m : (ℓ : Loc nD τ sig) → Buf (Elt Ideal) ℓ) (ρ : Dev nD → PrngReg) (c : Dev nD)

theorem W15_v30 (hf0 : HF0) (hf1 : HF1) (hf2 : HF2) (hf3 : HF3) (hf4 : HF4) (hf5 : HF5) : W15 m ρ c (Proc.devRef .tc main_v30) = OUT m c := by
  refine (W15_arr m ρ c 4).trans ?_
  rw [hf5 (V14 m ρ) c]
  have e_main_v28 : (V14 m ρ c main_v28 : _) = sca' (ei m c) (M3 m c) := by
    show StableHlo.after hostOps5 (W13 m ρ c) (Proc.devRef .tc main_v28) = _
    reads [W3_ne, W5_ne, W8_ne, W10_ne, W13_ne, W13_v25 m ρ c hf0 hf1 hf2 hf3 hf4]
    all_goals rfl
  have e_main_v21 : (V14 m ρ c main_v21 : _) = H2 m c := by
    show StableHlo.after hostOps5 (W13 m ρ c) (Proc.devRef .tc main_v21) = _
    reads [W3_ne, W5_ne, W8_ne, W10_ne, W13_ne, W10_v21 m ρ c hf0 hf1 hf2 hf3]
    all_goals rfl
  have e_main_arg13 : (V14 m ρ c main_arg13 : _) = wr3 m c := by
    show StableHlo.after hostOps5 (W13 m ρ c) (Proc.devRef .tc main_arg13) = _
    reads [W3_ne, W5_ne, W8_ne, W10_ne, W13_ne]
    all_goals rfl
  have e_main_v29 : (V14 m ρ c main_v29 : _) = shapeCast S1x4 (b3 m c) Facts₀.shapeCasts_S4_S1x4 := by
    show StableHlo.after hostOps5 (W13 m ρ c) (Proc.devRef .tc main_v29) = _
    reads [W3_ne, W5_ne, W8_ne, W10_ne, W13_ne]
    all_goals rfl
  rw [e_main_v28, e_main_v21, e_main_arg13, e_main_v29, bias_row]
  rfl

end Cert.KernelIdeal.Thread

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.EdgeMsg.lean ====
/-
  What an edge-message launch leaves in its output array: the messages of the shared specification, as one function
  of the arrays the launch finds.
-/
import proofs.«429120_j77498389889734_1_alg».proof.Proof.Gen.KernelIdeal.Frame
import proofs.«429120_j77498389889734_1_alg».proof.Proof.Spec
import proofs.«429120_j77498389889734_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## Shared: a column broadcast, and when two message entries agree -/

/-- The zero offset of a whole-block rectangle, as a constant function. -/
theorem hz : (![0, 0] : Fin 2 → Nat) = fun _ => 0 := funext fun a => by fin_cases a <;> rfl

/-- A one-column array broadcast along its rows reads, at (p, q), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Two message entries agree when the entries they are made of agree: the row of source features, the edge's
    scalar, and the column of each weight array. -/
theorem msg_congr {E E' K N : ℕ}
    (xj : (⟨2, ![E, K]⟩ : Shape).Idx → EReal) (a : (⟨2, ![E, 1]⟩ : Shape).Idx → EReal)
    (wm bm : (⟨2, ![K, N]⟩ : Shape).Idx → EReal)
    (xj' : (⟨2, ![E', K]⟩ : Shape).Idx → EReal) (a' : (⟨2, ![E', 1]⟩ : Shape).Idx → EReal)
    (wm' bm' : (⟨2, ![K, N]⟩ : Shape).Idx → EReal)
    (j : (⟨2, ![E, N]⟩ : Shape).Idx) (j' : (⟨2, ![E', N]⟩ : Shape).Idx)
    (hx : ∀ k : Fin K, xj (ix2 (j 0) k) = xj' (ix2 (j' 0) k))
    (ha : a (ix2 (j 0) 0) = a' (ix2 (j' 0) 0))
    (hwm : ∀ k : Fin K, wm (ix2 k (j 1)) = wm' (ix2 k (j' 1)))
    (hbm : ∀ k : Fin K, bm (ix2 k (j 1)) = bm' (ix2 k (j' 1))) :
    Spec.msg xj a wm bm j = Spec.msg xj' a' wm' bm' j' := by
  unfold Spec.msg Spec.mm
  rw [ha]
  exact congrArg₂ (· + ·)
    (congrArg (a' (ix2 (j' 0) 0) * ·) (Finset.sum_congr rfl fun k _ => by rw [hx k, hwm k]))
    (Finset.sum_congr rfl fun k _ => by rw [hx k, hbm k])

/-! ## Launch 0 -/

/-- The body's stored value on a block of 10000 rows: the messages of that block. The two format changes are the
    identity on the extended reals, each product into the zero accumulator is the plain sum over the inner
    coordinate, and the broadcast scalar is the row's. -/
theorem pay0_eq (x : Vec Ideal S10000x64 .f32) (wm bm : Vec Ideal S64x64 .f32) (e : Vec Ideal S10000x1 .f32) :
    k0_pay1 (F := Ideal) x wm bm e = Spec.msg (E := 10000) (K := 64) (N := 64) x e wm bm := by
  funext j
  obtain ⟨p, q, rfl⟩ : ∃ (p : Fin 10000) (q : Fin 64), j = ix2 p q := ⟨j 0, j 1, eq_ix2 j⟩
  unfold k0_pay1
  simp only [shapeCast_self]
  rw [addf_apply, mulf_apply, show dot_S10000x64_S64x64_S10000x64_1_0_0_1_n_n = DotDims.plain 10000 64 64 from rfl]
  exact congrArg₂ (· + ·)
    (congrArg₂ (· * ·) (broadcastTo_a1_ab_apply e broadcasts_S10000x1_S10000x64 p q)
      (Cert.LibPlainDot.matmul_zero_apply none (truncf FTy.bf16 x bitsLt_bf16_f32) (truncf FTy.bf16 wm bitsLt_bf16_f32) (ix2 p q)))
    (Cert.LibPlainDot.matmul_zero_apply none (truncf FTy.bf16 x bitsLt_bf16_f32) (truncf FTy.bf16 bm bitsLt_bf16_f32) (ix2 p q))

/-- The index maps over the grid: the row-tiled windows take block t on the row axis, the weight windows their one
    whole block, and every window block 0 on the column axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point t is rows 10000·t … 10000·t + 9999 of the gathered source rows. -/
theorem iblk0_0_apply (c : Dev nD) (t : Fin cfg0.N) (y : S10000x64.Idx) (i : S1600000x64.Idx)
    (h0 : (i 0).val = t.val * 10000 + (y 0).val) (h1 : (i 1).val = (y 1).val) :
    (iblk0 V c 0 t : Vec Ideal S10000x64 .f32) y = (V c main_v6 : S1600000x64.Idx → EReal) i := by
  obtain ⟨e0, e1, -⟩ := idx_facts0 t
  show V c main_v6 (((cfg0.win 0).blk t).view.emb y) = V c main_v6 i
  refine congrArg (V c main_v6) (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- Window 1's block at point t is the same rows of the edge scalars. -/
theorem iblk0_1_apply (c : Dev nD) (t : Fin cfg0.N) (y : S10000x1.Idx) (i : S1600000x1.Idx)
    (h0 : (i 0).val = t.val * 10000 + (y 0).val) (h1 : (i 1).val = (y 1).val) :
    (iblk0 V c 1 t : Vec Ideal S10000x1 .f32) y = (V c main_arg2 : S1600000x1.Idx → EReal) i := by
  obtain ⟨-, -, e0, e1, -⟩ := idx_facts0 t
  show V c main_arg2 (((cfg0.win 1).blk t).view.emb y) = V c main_arg2 i
  refine congrArg (V c main_arg2) (funext fun a => Fin.ext ?_)
  match a with
  | ⟨0, _⟩ => show win0_1.index t (0 : Fin 2) * 10000 + 1 * (y 0).val = (i 0).val; omega
  | ⟨1, _⟩ => show win0_1.index t (1 : Fin 2) * 1 + 1 * (y 1).val = (i 1).val; omega

/-- Window 2's block at every point is the whole first weight array. -/
theorem iblk0_2_apply (c : Dev nD) (t : Fin cfg0.N) (y : S64x64.Idx) :
    (iblk0 V c 2 t : Vec Ideal S64x64 .f32) y = (V c main_v4 : S64x64.Idx → EReal) y := by
  obtain ⟨-, -, -, -, e0, e1, -⟩ := idx_facts0 t
  show V c main_v4 (((cfg0.win 2).blk t).view.emb y) = V c main_v4 y
  refine congrArg (V c main_v4) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block at every point is the whole second weight array. -/
theorem iblk0_3_apply (c : Dev nD) (t : Fin cfg0.N) (y : S64x64.Idx) :
    (iblk0 V c 3 t : Vec Ideal S64x64 .f32) y = (V c main_v5 : S64x64.Idx → EReal) y := by
  obtain ⟨-, -, -, -, -, -, e0, e1, -⟩ := idx_facts0 t
  show V c main_v5 (((cfg0.win 3).blk t).view.emb y) = V c main_v5 y
  refine congrArg (V c main_v5) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- What point t writes back is block t of the message array of the arrays at entry: entry (p, q) of the block is
    made of row 10000·t + p of the source rows and of the scalars and of column q of the weights, which are the
    entries the array's message at (10000·t + p, q) is made of. -/
theorem flushed0_eq (c : Dev nD) (t : Fin cfg0.N) :
    (dat0 (F := Ideal) V c).flushed 4 t
      = ((cfg0.win 4).blk t).view.read (Elt Ideal)
          (Spec.msg (E := 1600000) (K := 64) (N := 64) (V c main_v6) (V c main_arg2) (V c main_v4) (V c main_v5)) := by
  show (cfg0.win 4).cut (grid0.coords t) ((dat0 V c).after 4 t) = _
  rw [after0_4]
  unfold out0_4
  rw [View.canon_unit_zero hz]
  simp only [View.ld_unit_zero (S := S10000x64) hz, View.ld_unit_zero (S := S64x64) hz, View.ld_unit_zero (S := S10000x1) hz]
  rw [pay0_eq]
  funext j
  obtain ⟨-, -, -, -, -, -, -, -, e0, e1⟩ := idx_facts0 t
  show Spec.msg (E := 10000) (K := 64) (N := 64) (iblk0 V c 0 t) (iblk0 V c 1 t) (iblk0 V c 2 t) (iblk0 V c 3 t) j
    = Spec.msg (E := 1600000) (K := 64) (N := 64) (V c main_v6) (V c main_arg2) (V c main_v4) (V c main_v5)
        (((cfg0.win 4).blk t).view.emb j)
  have r0 : ((((cfg0.win 4).blk t).view.emb j) 0).val = t.val * 10000 + (j 0).val := by
    show win0_4.index t (0 : Fin 2) * 10000 + 1 * (j 0).val = _; omega
  have r1 : ((((cfg0.win 4).blk t).view.emb j) 1).val = (j 1).val := by
    show win0_4.index t (1 : Fin 2) * 64 + 1 * (j 1).val = _; omega
  refine msg_congr _ _ _ _ _ _ _ _ j (((cfg0.win 4).blk t).view.emb j) (fun k => ?_) ?_ (fun k => ?_) (fun k => ?_)
  · exact iblk0_0_apply V c t _ _ r0 rfl
  · exact iblk0_1_apply V c t _ _ r0 rfl
  · exact (iblk0_2_apply V c t _).trans (congrArg (V c main_v4) (funext fun a => Fin.ext (by
      match a with
      | ⟨0, _⟩ => rfl
      | ⟨1, _⟩ => exact r1.symm)))
  · exact (iblk0_3_apply V c t _).trans (congrArg (V c main_v5) (funext fun a => Fin.ext (by
      match a with
      | ⟨0, _⟩ => rfl
      | ⟨1, _⟩ => exact r1.symm)))

/-- An index of the message array is in point t's block iff each coordinate is in the block's range on its axis. -/
theorem mem_blk0 (t : Fin cfg0.N) (i : S1600000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v7).slice (win0_4.rect t)).set ↔ _
  rw [View.set_slice_whole, Rect.mem_set_unit]
  exact Iff.rfl

/-- Every row r of the message array lies in the block of point r / 10000, and every point writes back. -/
theorem cover0 (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 160 := N_0
  have ht : (i 0).val / 10000 < cfg0.N := by rw [hN]; omega
  obtain ⟨-, -, -, -, -, -, -, -, e0, e1⟩ := idx_facts0 ⟨(i 0).val / 10000, ht⟩
  have e0' : win0_4.index ⟨(i 0).val / 10000, ht⟩ (0 : Fin 2) = (i 0).val / 10000 := e0
  refine ⟨⟨(i 0).val / 10000, ht⟩, flush0_4 _, ?_⟩
  rw [mem_blk0]
  intro a
  match a with
  | ⟨0, _⟩ =>
    show win0_4.index ⟨(i 0).val / 10000, ht⟩ (0 : Fin 2) * 10000 ≤ (i 0).val
      ∧ (i 0).val < win0_4.index ⟨(i 0).val / 10000, ht⟩ (0 : Fin 2) * 10000 + 10000
    omega
  | ⟨1, _⟩ =>
    show win0_4.index ⟨(i 0).val / 10000, ht⟩ (1 : Fin 2) * 64 ≤ (i 1).val
      ∧ (i 1).val < win0_4.index ⟨(i 0).val / 10000, ht⟩ (1 : Fin 2) * 64 + 64
    omega

/-- Launch 0 (hidden width): the output array after the launch is the message array of the arrays at entry. -/
theorem final0 (c : Dev nD) :
    (dat0 (F := Ideal) V c).arrAt 4 cfg0.N
      = Spec.msg (E := 1600000) (K := 64) (N := 64) (V c main_v6) (V c main_arg2) (V c main_v4) (V c main_v5) :=
  (dat0 (F := Ideal) V c).arrAt_eq_of_cover 4 _ (fun t _ => flushed0_eq V c t) cover0

/-! ## Launch 2 -/

/-- The second layer's body is the same text: its stored value on a block of 10000 rows is the messages of that block. -/
theorem pay2_eq (x : Vec Ideal S10000x64 .f32) (wm bm : Vec Ideal S64x64 .f32) (e : Vec Ideal S10000x1 .f32) :
    k2_pay1 (F := Ideal) x wm bm e = Spec.msg (E := 10000) (K := 64) (N := 64) x e wm bm := by
  funext j
  obtain ⟨p, q, rfl⟩ : ∃ (p : Fin 10000) (q : Fin 64), j = ix2 p q := ⟨j 0, j 1, eq_ix2 j⟩
  unfold k2_pay1
  simp only [shapeCast_self]
  rw [addf_apply, mulf_apply, show dot_S10000x64_S64x64_S10000x64_1_0_0_1_n_n = DotDims.plain 10000 64 64 from rfl]
  exact congrArg₂ (· + ·)
    (congrArg₂ (· * ·) (broadcastTo_a1_ab_apply e broadcasts_S10000x1_S10000x64 p q)
      (Cert.LibPlainDot.matmul_zero_apply none (truncf FTy.bf16 x bitsLt_bf16_f32) (truncf FTy.bf16 wm bitsLt_bf16_f32) (ix2 p q)))
    (Cert.LibPlainDot.matmul_zero_apply none (truncf FTy.bf16 x bitsLt_bf16_f32) (truncf FTy.bf16 bm bitsLt_bf16_f32) (ix2 p q))

/-- The index maps over the grid, as in launch 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t is rows 10000·t … 10000·t + 9999 of the gathered source rows. -/
theorem iblk2_0_apply (c : Dev nD) (t : Fin cfg2.N) (y : S10000x64.Idx) (i : S1600000x64.Idx)
    (h0 : (i 0).val = t.val * 10000 + (y 0).val) (h1 : (i 1).val = (y 1).val) :
    (iblk2 V c 0 t : Vec Ideal S10000x64 .f32) y = (V c main_v15 : S1600000x64.Idx → EReal) i := by
  obtain ⟨e0, e1, -⟩ := idx_facts2 t
  show V c main_v15 (((cfg2.win 0).blk t).view.emb y) = V c main_v15 i
  refine congrArg (V c main_v15) (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- Window 1's block at point t is the same rows of the edge scalars. -/
theorem iblk2_1_apply (c : Dev nD) (t : Fin cfg2.N) (y : S10000x1.Idx) (i : S1600000x1.Idx)
    (h0 : (i 0).val = t.val * 10000 + (y 0).val) (h1 : (i 1).val = (y 1).val) :
    (iblk2 V c 1 t : Vec Ideal S10000x1 .f32) y = (V c main_arg2 : S1600000x1.Idx → EReal) i := by
  obtain ⟨-, -, e0, e1, -⟩ := idx_facts2 t
  show V c main_arg2 (((cfg2.win 1).blk t).view.emb y) = V c main_arg2 i
  refine congrArg (V c main_arg2) (funext fun a => Fin.ext ?_)
  match a with
  | ⟨0, _⟩ => show win2_1.index t (0 : Fin 2) * 10000 + 1 * (y 0).val = (i 0).val; omega
  | ⟨1, _⟩ => show win2_1.index t (1 : Fin 2) * 1 + 1 * (y 1).val = (i 1).val; omega

/-- Window 2's block at every point is the whole first weight array. -/
theorem iblk2_2_apply (c : Dev nD) (t : Fin cfg2.N) (y : S64x64.Idx) :
    (iblk2 V c 2 t : Vec Ideal S64x64 .f32) y = (V c main_v13 : S64x64.Idx → EReal) y := by
  obtain ⟨-, -, -, -, e0, e1, -⟩ := idx_facts2 t
  show V c main_v13 (((cfg2.win 2).blk t).view.emb y) = V c main_v13 y
  refine congrArg (V c main_v13) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block at every point is the whole second weight array. -/
theorem iblk2_3_apply (c : Dev nD) (t : Fin cfg2.N) (y : S64x64.Idx) :
    (iblk2 V c 3 t : Vec Ideal S64x64 .f32) y = (V c main_v14 : S64x64.Idx → EReal) y := by
  obtain ⟨-, -, -, -, -, -, e0, e1, -⟩ := idx_facts2 t
  show V c main_v14 (((cfg2.win 3).blk t).view.emb y) = V c main_v14 y
  refine congrArg (V c main_v14) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- What point t writes back is block t of the message array of the arrays at entry. -/
theorem flushed2_eq (c : Dev nD) (t : Fin cfg2.N) :
    (dat2 (F := Ideal) V c).flushed 4 t
      = ((cfg2.win 4).blk t).view.read (Elt Ideal)
          (Spec.msg (E := 1600000) (K := 64) (N := 64) (V c main_v15) (V c main_arg2) (V c main_v13) (V c main_v14)) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x64) hz, View.ld_unit_zero (S := S10000x1) hz]
  rw [pay2_eq]
  funext j
  obtain ⟨-, -, -, -, -, -, -, -, e0, e1⟩ := idx_facts2 t
  show Spec.msg (E := 10000) (K := 64) (N := 64) (iblk2 V c 0 t) (iblk2 V c 1 t) (iblk2 V c 2 t) (iblk2 V c 3 t) j
    = Spec.msg (E := 1600000) (K := 64) (N := 64) (V c main_v15) (V c main_arg2) (V c main_v13) (V c main_v14)
        (((cfg2.win 4).blk t).view.emb j)
  have r0 : ((((cfg2.win 4).blk t).view.emb j) 0).val = t.val * 10000 + (j 0).val := by
    show win2_4.index t (0 : Fin 2) * 10000 + 1 * (j 0).val = _; omega
  have r1 : ((((cfg2.win 4).blk t).view.emb j) 1).val = (j 1).val := by
    show win2_4.index t (1 : Fin 2) * 64 + 1 * (j 1).val = _; omega
  refine msg_congr _ _ _ _ _ _ _ _ j (((cfg2.win 4).blk t).view.emb j) (fun k => ?_) ?_ (fun k => ?_) (fun k => ?_)
  · exact iblk2_0_apply V c t _ _ r0 rfl
  · exact iblk2_1_apply V c t _ _ r0 rfl
  · exact (iblk2_2_apply V c t _).trans (congrArg (V c main_v13) (funext fun a => Fin.ext (by
      match a with
      | ⟨0, _⟩ => rfl
      | ⟨1, _⟩ => exact r1.symm)))
  · exact (iblk2_3_apply V c t _).trans (congrArg (V c main_v14) (funext fun a => Fin.ext (by
      match a with
      | ⟨0, _⟩ => rfl
      | ⟨1, _⟩ => exact r1.symm)))

/-- An index of the message array is in point t's block iff each coordinate is in the block's range on its axis. -/
theorem mem_blk2 (t : Fin cfg2.N) (i : S1600000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v16).slice (win2_4.rect t)).set ↔ _
  rw [View.set_slice_whole, Rect.mem_set_unit]
  exact Iff.rfl

/-- Every row r of the message array lies in the block of point r / 10000, and every point writes back. -/
theorem cover2 (i : S1600000x64.Idx) :
    ∃ t : Fin cfg2.N, (cfg2.win 4).flush t = true ∧ i ∈ ((cfg2.win 4).blk t).view.set := by
  have hi0 : (i 0).val < 1600000 := (i 0).isLt
  have hi1 : (i 1).val < 64 := (i 1).isLt
  have hN : cfg2.N = 160 := N_2
  have ht : (i 0).val / 10000 < cfg2.N := by rw [hN]; omega
  obtain ⟨-, -, -, -, -, -, -, -, e0, e1⟩ := idx_facts2 ⟨(i 0).val / 10000, ht⟩
  have e0' : win2_4.index ⟨(i 0).val / 10000, ht⟩ (0 : Fin 2) = (i 0).val / 10000 := e0
  refine ⟨⟨(i 0).val / 10000, ht⟩, flush2_4 _, ?_⟩
  rw [mem_blk2]
  intro a
  match a with
  | ⟨0, _⟩ =>
    show win2_4.index ⟨(i 0).val / 10000, ht⟩ (0 : Fin 2) * 10000 ≤ (i 0).val
      ∧ (i 0).val < win2_4.index ⟨(i 0).val / 10000, ht⟩ (0 : Fin 2) * 10000 + 10000
    omega
  | ⟨1, _⟩ =>
    show win2_4.index ⟨(i 0).val / 10000, ht⟩ (1 : Fin 2) * 64 ≤ (i 1).val
      ∧ (i 1).val < win2_4.index ⟨(i 0).val / 10000, ht⟩ (1 : Fin 2) * 64 + 64
    omega

/-- Launch 2 (hidden width, second layer). -/
theorem final2 (c : Dev nD) :
    (dat2 (F := Ideal) V c).arrAt 4 cfg2.N
      = Spec.msg (E := 1600000) (K := 64) (N := 64) (V c main_v15) (V c main_arg2) (V c main_v13) (V c main_v14) :=
  (dat2 (F := Ideal) V c).arrAt_eq_of_cover 4 _ (fun t _ => flushed2_eq V c t) cover2

/-! ## Launch 4 -/

/-- The last layer's body at output width 4: its stored value on a block of 10000 rows is the messages of that
    block, the weights now having 4 columns. -/
theorem pay4_eq (x : Vec Ideal S10000x64 .f32) (wm bm : Vec Ideal S64x4 .f32) (e : Vec Ideal S10000x1 .f32) :
    k4_pay1 (F := Ideal) x wm bm e = Spec.msg (E := 10000) (K := 64) (N := 4) x e wm bm := by
  funext j
  obtain ⟨p, q, rfl⟩ : ∃ (p : Fin 10000) (q : Fin 4), j = ix2 p q := ⟨j 0, j 1, eq_ix2 j⟩
  unfold k4_pay1
  simp only [shapeCast_self]
  rw [addf_apply, mulf_apply, show dot_S10000x64_S64x4_S10000x4_1_0_0_1_n_n = DotDims.plain 10000 64 4 from rfl]
  exact congrArg₂ (· + ·)
    (congrArg₂ (· * ·) (broadcastTo_a1_ab_apply e broadcasts_S10000x1_S10000x4 p q)
      (Cert.LibPlainDot.matmul_zero_apply none (truncf FTy.bf16 x bitsLt_bf16_f32) (truncf FTy.bf16 wm bitsLt_bf16_f32) (ix2 p q)))
    (Cert.LibPlainDot.matmul_zero_apply none (truncf FTy.bf16 x bitsLt_bf16_f32) (truncf FTy.bf16 bm bitsLt_bf16_f32) (ix2 p q))

/-- The index maps over the grid, as in launch 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point t is rows 10000·t … 10000·t + 9999 of the gathered source rows. -/
theorem iblk4_0_apply (c : Dev nD) (t : Fin cfg4.N) (y : S10000x64.Idx) (i : S1600000x64.Idx)
    (h0 : (i 0).val = t.val * 10000 + (y 0).val) (h1 : (i 1).val = (y 1).val) :
    (iblk4 V c 0 t : Vec Ideal S10000x64 .f32) y = (V c main_v24 : S1600000x64.Idx → EReal) i := by
  obtain ⟨e0, e1, -⟩ := idx_facts4 t
  show V c main_v24 (((cfg4.win 0).blk t).view.emb y) = V c main_v24 i
  refine congrArg (V c main_v24) (funext fun a => Fin.ext ?_)
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- Window 1's block at point t is the same rows of the edge scalars. -/
theorem iblk4_1_apply (c : Dev nD) (t : Fin cfg4.N) (y : S10000x1.Idx) (i : S1600000x1.Idx)
    (h0 : (i 0).val = t.val * 10000 + (y 0).val) (h1 : (i 1).val = (y 1).val) :
    (iblk4 V c 1 t : Vec Ideal S10000x1 .f32) y = (V c main_arg2 : S1600000x1.Idx → EReal) i := by
  obtain ⟨-, -, e0, e1, -⟩ := idx_facts4 t
  show V c main_arg2 (((cfg4.win 1).blk t).view.emb y) = V c main_arg2 i
  refine congrArg (V c main_arg2) (funext fun a => Fin.ext ?_)
  match a with
  | ⟨0, _⟩ => show win4_1.index t (0 : Fin 2) * 10000 + 1 * (y 0).val = (i 0).val; omega
  | ⟨1, _⟩ => show win4_1.index t (1 : Fin 2) * 1 + 1 * (y 1).val = (i 1).val; omega

/-- Window 2's block at every point is the whole first weight array. -/
theorem iblk4_2_apply (c : Dev nD) (t : Fin cfg4.N) (y : S64x4.Idx) :
    (iblk4 V c 2 t : Vec Ideal S64x4 .f32) y = (V c main_v22 : S64x4.Idx → EReal) y := by
  obtain ⟨-, -, -, -, e0, e1, -⟩ := idx_facts4 t
  show V c main_v22 (((cfg4.win 2).blk t).view.emb y) = V c main_v22 y
  refine congrArg (V c main_v22) (funext fun a => Fin.ext ?_)
  match a with
  | ⟨0, _⟩ => show win4_2.index t (0 : Fin 2) * 64 + 1 * (y 0).val = (y 0).val; omega
  | ⟨1, _⟩ => show win4_2.index t (1 : Fin 2) * 4 + 1 * (y 1).val = (y 1).val; omega

/-- Window 3's block at every point is the whole second weight array. -/
theorem iblk4_3_apply (c : Dev nD) (t : Fin cfg4.N) (y : S64x4.Idx) :
    (iblk4 V c 3 t : Vec Ideal S64x4 .f32) y = (V c main_v23 : S64x4.Idx → EReal) y := by
  obtain ⟨-, -, -, -, -, -, e0, e1, -⟩ := idx_facts4 t
  show V c main_v23 (((cfg4.win 3).blk t).view.emb y) = V c main_v23 y
  refine congrArg (V c main_v23) (funext fun a => Fin.ext ?_)
  match a with
  | ⟨0, _⟩ => show win4_3.index t (0 : Fin 2) * 64 + 1 * (y 0).val = (y 0).val; omega
  | ⟨1, _⟩ => show win4_3.index t (1 : Fin 2) * 4 + 1 * (y 1).val = (y 1).val; omega

/-- What point t writes back is block t of the message array of the arrays at entry. -/
theorem flushed4_eq (c : Dev nD) (t : Fin cfg4.N) :
    (dat4 (F := Ideal) V c).flushed 4 t
      = ((cfg4.win 4).blk t).view.read (Elt Ideal)
          (Spec.msg (E := 1600000) (K := 64) (N := 4) (V c main_v24) (V c main_arg2) (V c main_v22) (V c main_v23)) := by
  show (cfg4.win 4).cut (grid4.coords t) ((dat4 V c).after 4 t) = _
  rw [after4_4]
  unfold out4_4
  rw [View.canon_unit_zero hz]
  simp only [View.ld_unit_zero (S := S10000x64) hz, View.ld_unit_zero (S := S64x4) hz, View.ld_unit_zero (S := S10000x1) hz]
  rw [pay4_eq]
  funext j
  obtain ⟨-, -, -, -, -, -, -, -, e0, e1⟩ := idx_facts4 t
  show Spec.msg (E := 10000) (K := 64) (N := 4) (iblk4 V c 0 t) (iblk4 V c 1 t) (iblk4 V c 2 t) (iblk4 V c 3 t) j
    = Spec.msg (E := 1600000) (K := 64) (N := 4) (V c main_v24) (V c main_arg2) (V c main_v22) (V c main_v23)
        (((cfg4.win 4).blk t).view.emb j)
  have r0 : ((((cfg4.win 4).blk t).view.emb j) 0).val = t.val * 10000 + (j 0).val := by
    show win4_4.index t (0 : Fin 2) * 10000 + 1 * (j 0).val = _; omega
  have r1 : ((((cfg4.win 4).blk t).view.emb j) 1).val = (j 1).val := by
    show win4_4.index t (1 : Fin 2) * 4 + 1 * (j 1).val = _; omega
  refine msg_congr _ _ _ _ _ _ _ _ j (((cfg4.win 4).blk t).view.emb j) (fun k => ?_) ?_ (fun k => ?_) (fun k => ?_)
  · exact iblk4_0_apply V c t _ _ r0 rfl
  · exact iblk4_1_apply V c t _ _ r0 rfl
  · exact (iblk4_2_apply V c t _).trans (congrArg (V c main_v22) (funext fun a => Fin.ext (by
      match a with
      | ⟨0, _⟩ => rfl
      | ⟨1, _⟩ => exact r1.symm)))
  · exact (iblk4_3_apply V c t _).trans (congrArg (V c main_v23) (funext fun a => Fin.ext (by
      match a with
      | ⟨0, _⟩ => rfl
      | ⟨1, _⟩ => exact r1.symm)))

/-- An index of the message array is in point t's block iff each coordinate is in the block's range on its axis. -/
theorem mem_blk4 (t : Fin cfg4.N) (i : S1600000x4.Idx) :
    i ∈ ((cfg4.win 4).blk t).view.set ↔ ∀ a : Fin 2, win4_4.index t a * S10000x4.size a ≤ (i a).val ∧ (i a).val < win4_4.index t a * S10000x4.size a + S10000x4.size a := by
  show i ∈ ((View.whole main_v25).slice (win4_4.rect t)).set ↔ _
  rw [View.set_slice_whole, Rect.mem_set_unit]
  exact Iff.rfl

/-- Every row r of the message array lies in the block of point r / 10000, and every point writes back. -/
theorem cover4 (i : S1600000x4.Idx) :
    ∃ t : Fin cfg4.N, (cfg4.win 4).flush t = true ∧ i ∈ ((cfg4.win 4).blk t).view.set := by
  have hi0 : (i 0).val < 1600000 := (i 0).isLt
  have hi1 : (i 1).val < 4 := (i 1).isLt
  have hN : cfg4.N = 160 := N_4
  have ht : (i 0).val / 10000 < cfg4.N := by rw [hN]; omega
  obtain ⟨-, -, -, -, -, -, -, -, e0, e1⟩ := idx_facts4 ⟨(i 0).val / 10000, ht⟩
  have e0' : win4_4.index ⟨(i 0).val / 10000, ht⟩ (0 : Fin 2) = (i 0).val / 10000 := e0
  refine ⟨⟨(i 0).val / 10000, ht⟩, flush4_4 _, ?_⟩
  rw [mem_blk4]
  intro a
  match a with
  | ⟨0, _⟩ =>
    show win4_4.index ⟨(i 0).val / 10000, ht⟩ (0 : Fin 2) * 10000 ≤ (i 0).val
      ∧ (i 0).val < win4_4.index ⟨(i 0).val / 10000, ht⟩ (0 : Fin 2) * 10000 + 10000
    omega
  | ⟨1, _⟩ =>
    show win4_4.index ⟨(i 0).val / 10000, ht⟩ (1 : Fin 2) * 4 ≤ (i 1).val
      ∧ (i 1).val < win4_4.index ⟨(i 0).val / 10000, ht⟩ (1 : Fin 2) * 4 + 4
    omega

/-- Launch 4 (output width). -/
theorem final4 (c : Dev nD) :
    (dat4 (F := Ideal) V c).arrAt 4 cfg4.N
      = Spec.msg (E := 1600000) (K := 64) (N := 4) (V c main_v24) (V c main_arg2) (V c main_v22) (V c main_v23) :=
  (dat4 (F := Ideal) V c).arrAt_eq_of_cover 4 _ (fun t _ => flushed4_eq V c t) cover4

end Cert.KernelIdeal.RegionValue

end
-- ==== Proof.NodeRelu.lean ====
/-
  What a rectified node-update launch leaves in its output array: max(·, 0) of the summed messages plus the root
  term plus the bias, as one function of the arrays the launch finds.

  The body's stored value, on a block of ten thousand rows, is the specification at that extent: the root term is one
  plain product into a zero accumulator (the sum over the inner coordinate), the bias row is broadcast over the rows,
  the rounding to the narrower float type is the identity on the extended reals, and the rectifier's constant is 0.
  The specification at entry (p, q) reads only row p of the row-tiled arrays, so the block that grid point t writes
  back is block t of the specification of the whole arrays; the ten blocks cover the hundred thousand rows (row r
  lies in block r / 10000), so the output array ends holding that one function.
-/
import proofs.«429120_j77498389889734_1_alg».proof.Proof.Gen.KernelIdeal.Frame
import proofs.«429120_j77498389889734_1_alg».proof.Proof.Spec
import proofs.«429120_j77498389889734_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The stored value on a block of rows -/

namespace NodeRelu

/-- The body's one product into a zero accumulator, at an index: the sum over the inner coordinate. -/
theorem root_apply (x : Vec Ideal S10000x64 .f32) (w : Vec Ideal S64x64 .f32) (p : Fin 10000) (q : Fin 64) :
    matmul (F := Ideal) dot_S10000x64_S64x64_S10000x64_1_0_0_1_n_n none (truncf (F := Ideal) FTy.bf16 x bitsLt_bf16_f32)
        (truncf (F := Ideal) FTy.bf16 w bitsLt_bf16_f32) (constant (F := Ideal) S10000x64 FTy.f32 0x00000000#32) (ix2 p q)
      = ∑ k : Fin 64, x (ix2 p k) * w (ix2 k q) :=
  Cert.LibPlainDot.matmul_zero_apply (M := 10000) (K := 64) (N := 64) none
    (truncf (F := Ideal) FTy.bf16 x bitsLt_bf16_f32) (truncf (F := Ideal) FTy.bf16 w bitsLt_bf16_f32) (ix2 p q)

/-- The body's payload on literal block types is the specification at 10000 rows. -/
theorem pay1_eq (x : Vec Ideal S10000x64 .f32) (w : Vec Ideal S64x64 .f32) (agg : Vec Ideal S10000x64 .f32)
    (b : Vec Ideal S1x64 .f32) :
    k1_pay1 x w agg b
      = Spec.relu (Spec.lin (E := 10000) (K := 64) (N := 64) agg x w (fun q => b (ix2 0 (q 0)))) := by
  funext j
  obtain ⟨p, q, rfl⟩ : ∃ p q, j = ix2 p q := ⟨j 0, j 1, eq_ix2 j⟩
  unfold k1_pay1
  rw [shapeCast_self, shapeCast_self]
  show max ((agg (ix2 p q) + _) + _) (Ideal.ofBits .f32 0x00000000#32)
      = max ((agg (ix2 p q) + ∑ k : Fin 64, x (ix2 p k) * w (ix2 k q)) + b (ix2 0 q)) 0
  rw [Ideal.ofBits_zero_f32, root_apply, broadcastTo_1b_ab_apply]

/-- The second layer's body casts its first load to the same shape first; the payload is the same function. -/
theorem pay3_eq (x : Vec Ideal S10000x64 .f32) (w : Vec Ideal S64x64 .f32) (agg : Vec Ideal S10000x64 .f32)
    (b : Vec Ideal S1x64 .f32) :
    k3_pay1 x w agg b
      = Spec.relu (Spec.lin (E := 10000) (K := 64) (N := 64) agg x w (fun q => b (ix2 0 (q 0)))) := by
  funext j
  obtain ⟨p, q, rfl⟩ : ∃ p q, j = ix2 p q := ⟨j 0, j 1, eq_ix2 j⟩
  unfold k3_pay1
  rw [shapeCast_self, shapeCast_self, shapeCast_self]
  show max ((agg (ix2 p q) + _) + _) (Ideal.ofBits .f32 0x00000000#32)
      = max ((agg (ix2 p q) + ∑ k : Fin 64, x (ix2 p k) * w (ix2 k q)) + b (ix2 0 q)) 0
  rw [Ideal.ofBits_zero_f32, root_apply, broadcastTo_1b_ab_apply]

/-! ## From a block of rows to the whole array -/

/-- The specification reads only row p of the row-tiled arrays: if the block's row p is the array's row P
    (both the summed messages and the node features), the two specifications agree at (p, q) and (P, q). -/
theorem relu_lin_rows {E₀ E K N : Nat}
    (agg : (⟨2, ![E₀, N]⟩ : Shape).Idx → EReal) (x : (⟨2, ![E₀, K]⟩ : Shape).Idx → EReal)
    (A : (⟨2, ![E, N]⟩ : Shape).Idx → EReal) (X : (⟨2, ![E, K]⟩ : Shape).Idx → EReal)
    (w : (⟨2, ![K, N]⟩ : Shape).Idx → EReal) (b : (⟨1, ![N]⟩ : Shape).Idx → EReal)
    (p : Fin E₀) (P : Fin E) (q : Fin N)
    (hagg : agg (ix2 p q) = A (ix2 P q)) (hx : ∀ k : Fin K, x (ix2 p k) = X (ix2 P k)) :
    Spec.relu (Spec.lin agg x w b) (ix2 p q) = Spec.relu (Spec.lin A X w b) (ix2 P q) := by
  show max ((agg (ix2 p q) + ∑ k : Fin K, x (ix2 p k) * w (ix2 k q)) + b (ix1 q)) 0
      = max ((A (ix2 P q) + ∑ k : Fin K, X (ix2 P k) * w (ix2 k q)) + b (ix1 q)) 0
  rw [hagg]
  simp only [hx]

theorem hz : (![0, 0] : Fin 2 → Nat) = fun _ => 0 := funext fun a => by fin_cases a <;> rfl

/-! ## Launch 1 -/

/-- The printed index maps of launch 1, decided over its ten grid points: the row-tiled windows (node rows, summed
    messages, output) take block t, the weight and the bias row are whole at every point. -/
theorem idx_facts1 : ∀ t : Fin cfg1.N, t.val ≤ 9
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Every block of ten thousand rows is some point's. -/
theorem idx_onto1 : ∀ r : Fin 10, ∃ t : Fin cfg1.N, t.val = r.val :=
  (by decide +kernel : ∀ r : Fin 10, ∃ t : Fin grid1.N, t.val = r.val)

/-- Where entry (p, q) of the output's block at point t sits in the array: row 10000 t + p. -/
theorem emb1_4 (t : Fin cfg1.N) (p : Fin 10000) (q : Fin 64) (h : t.val * 10000 + p.val < 100000) :
    ((cfg1.win 4).blk t).view.emb (ix2 p q) = (ix2 ⟨t.val * 10000 + p.val, h⟩ q : S100000x64.Idx) := by
  obtain ⟨-, -, -, -, -, -, -, -, -, e0, e1⟩ := idx_facts1 t
  funext a; apply Fin.ext
  match a with
  | ⟨0, _⟩ => show win1_4.index t (0 : Fin 2) * 10000 + 1 * p.val = t.val * 10000 + p.val; rw [e0]; omega
  | ⟨1, _⟩ => show win1_4.index t (1 : Fin 2) * 64 + 1 * q.val = q.val; rw [e1]; omega

/-- The node-row window's block at point t is rows 10000 t … of the node features. -/
theorem iblk1_0_apply (c : Dev nD) (t : Fin cfg1.N) (p : Fin 10000) (k : Fin 64) (h : t.val * 10000 + p.val < 100000) :
    (iblk1 V c 0 t : Vec Ideal S10000x64 .f32) (ix2 p k)
      = (V c main_arg0 : S100000x64.Idx → EReal) (ix2 ⟨t.val * 10000 + p.val, h⟩ k) := by
  obtain ⟨-, e0, e1, -⟩ := idx_facts1 t
  unfold iblk1
  rw [View.read_apply]
  show V c main_arg0 _ = V c main_arg0 _
  refine congrArg (V c main_arg0) ?_
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The summed-messages window's block at point t is rows 10000 t … of the summed messages. -/
theorem iblk1_3_apply (c : Dev nD) (t : Fin cfg1.N) (p : Fin 10000) (q : Fin 64) (h : t.val * 10000 + p.val < 100000) :
    (iblk1 V c 3 t : Vec Ideal S10000x64 .f32) (ix2 p q)
      = (V c main_v10 : S100000x64.Idx → EReal) (ix2 ⟨t.val * 10000 + p.val, h⟩ q) := by
  obtain ⟨-, -, -, -, -, -, -, e0, e1, -⟩ := idx_facts1 t
  unfold iblk1
  rw [View.read_apply]
  show V c main_v10 _ = V c main_v10 _
  refine congrArg (V c main_v10) ?_
  funext a; apply Fin.ext
  match a with
  | ⟨0, _⟩ => show win1_3.index t (0 : Fin 2) * 10000 + 1 * p.val = t.val * 10000 + p.val; rw [e0]; omega
  | ⟨1, _⟩ => show win1_3.index t (1 : Fin 2) * 64 + 1 * q.val = q.val; rw [e1]; omega

/-- The weight window's block is the whole weight at every point. -/
theorem iblk1_1_eq (c : Dev nD) (t : Fin cfg1.N) :
    (iblk1 V c 1 t : Vec Ideal S64x64 .f32) = (V c main_arg5 : S64x64.Idx → EReal) := by
  obtain ⟨-, -, -, e0, e1, -⟩ := idx_facts1 t
  funext y
  unfold iblk1
  rw [View.read_apply]
  show V c main_arg5 _ = V c main_arg5 _
  refine congrArg (V c main_arg5) ?_
  funext a; apply Fin.ext
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

/-- The bias window's block is the whole bias row at every point. -/
theorem iblk1_2_eq (c : Dev nD) (t : Fin cfg1.N) :
    (iblk1 V c 2 t : Vec Ideal S1x64 .f32) = (V c main_v11 : S1x64.Idx → EReal) := by
  obtain ⟨-, -, -, -, -, e0, e1, -⟩ := idx_facts1 t
  funext y
  unfold iblk1
  rw [View.read_apply]
  show V c main_v11 _ = V c main_v11 _
  refine congrArg (V c main_v11) ?_
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point t writes back is block t of the specification of the arrays the launch finds. -/
theorem flushed1_eq (c : Dev nD) (t : Fin cfg1.N) :
    (dat1 (F := Ideal) V c).flushed 4 t
      = ((cfg1.win 4).blk t).view.read (Elt Ideal)
          (Spec.relu (Spec.lin (E := 100000) (K := 64) (N := 64) (V c main_v10) (V c main_arg0) (V c main_arg5)
            (fun q => V c main_v11 (ix2 0 (q 0))))) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz, View.ld_unit_zero (S := S1x64) hz]
  rw [pay1_eq, iblk1_1_eq, iblk1_2_eq]
  funext j
  obtain ⟨p, q, rfl⟩ : ∃ (p : Fin 10000) (q : Fin 64), j = ix2 p q := ⟨j 0, j 1, eq_ix2 j⟩
  have hp : t.val * 10000 + p.val < 100000 := by
    have := (idx_facts1 t).1; have := p.isLt; omega
  rw [View.read_apply, emb1_4 t p q hp]
  exact relu_lin_rows _ _ _ _ _ _ p ⟨t.val * 10000 + p.val, hp⟩ q (iblk1_3_apply V c t p q hp)
    (fun k => iblk1_0_apply V c t p k hp)

/-- An index of the array is in point t's block iff each coordinate is in the block's range on its axis. -/
theorem mem_blk1 (t : Fin cfg1.N) (i : S100000x64.Idx) :
    i ∈ ((cfg1.win 4).blk t).view.set
      ↔ ∀ a : Fin 2, win1_4.index t a * S10000x64.size a ≤ (i a).val
          ∧ (i a).val < win1_4.index t a * S10000x64.size a + S10000x64.size a := by
  show i ∈ ((View.whole main_v12).slice (win1_4.rect t)).set ↔ _
  rw [View.set_slice_whole, Rect.mem_set_unit]
  exact Iff.rfl

/-- Every index of the output array is in some point's block: row r is in block r / 10000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 10000, by omega⟩
  have ht' : t.val = (i 0).val / 10000 := ht
  obtain ⟨-, -, -, -, -, -, -, -, -, e0, e1⟩ := idx_facts1 t
  refine ⟨t, flush1_4 t, ?_⟩
  rw [mem_blk1]
  intro a
  match a with
  | ⟨0, _⟩ =>
    show win1_4.index t (0 : Fin 2) * 10000 ≤ (i 0).val ∧ (i 0).val < win1_4.index t (0 : Fin 2) * 10000 + 10000
    rw [e0, ht']; omega
  | ⟨1, _⟩ =>
    show win1_4.index t (1 : Fin 2) * 64 ≤ (i 1).val ∧ (i 1).val < win1_4.index t (1 : Fin 2) * 64 + 64
    rw [e1]; omega

/-! ## Launch 3 -/

/-- The printed index maps of launch 3, decided over its ten grid points: the row-tiled windows (node rows, summed
    messages, output) take block t, the weight and the bias row are whole at every point. -/
theorem idx_facts3 : ∀ t : Fin cfg3.N, t.val ≤ 9
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Every block of ten thousand rows is some point's. -/
theorem idx_onto3 : ∀ r : Fin 10, ∃ t : Fin cfg3.N, t.val = r.val :=
  (by decide +kernel : ∀ r : Fin 10, ∃ t : Fin grid3.N, t.val = r.val)

/-- Where entry (p, q) of the output's block at point t sits in the array: row 10000 t + p. -/
theorem emb3_4 (t : Fin cfg3.N) (p : Fin 10000) (q : Fin 64) (h : t.val * 10000 + p.val < 100000) :
    ((cfg3.win 4).blk t).view.emb (ix2 p q) = (ix2 ⟨t.val * 10000 + p.val, h⟩ q : S100000x64.Idx) := by
  obtain ⟨-, -, -, -, -, -, -, -, -, e0, e1⟩ := idx_facts3 t
  funext a; apply Fin.ext
  match a with
  | ⟨0, _⟩ => show win3_4.index t (0 : Fin 2) * 10000 + 1 * p.val = t.val * 10000 + p.val; rw [e0]; omega
  | ⟨1, _⟩ => show win3_4.index t (1 : Fin 2) * 64 + 1 * q.val = q.val; rw [e1]; omega

/-- The node-row window's block at point t is rows 10000 t … of the node features. -/
theorem iblk3_0_apply (c : Dev nD) (t : Fin cfg3.N) (p : Fin 10000) (k : Fin 64) (h : t.val * 10000 + p.val < 100000) :
    (iblk3 V c 0 t : Vec Ideal S10000x64 .f32) (ix2 p k)
      = (V c main_v12 : S100000x64.Idx → EReal) (ix2 ⟨t.val * 10000 + p.val, h⟩ k) := by
  obtain ⟨-, e0, e1, -⟩ := idx_facts3 t
  unfold iblk3
  rw [View.read_apply]
  show V c main_v12 _ = V c main_v12 _
  refine congrArg (V c main_v12) ?_
  funext a; apply Fin.ext
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The summed-messages window's block at point t is rows 10000 t … of the summed messages. -/
theorem iblk3_3_apply (c : Dev nD) (t : Fin cfg3.N) (p : Fin 10000) (q : Fin 64) (h : t.val * 10000 + p.val < 100000) :
    (iblk3 V c 3 t : Vec Ideal S10000x64 .f32) (ix2 p q)
      = (V c main_v19 : S100000x64.Idx → EReal) (ix2 ⟨t.val * 10000 + p.val, h⟩ q) := by
  obtain ⟨-, -, -, -, -, -, -, e0, e1, -⟩ := idx_facts3 t
  unfold iblk3
  rw [View.read_apply]
  show V c main_v19 _ = V c main_v19 _
  refine congrArg (V c main_v19) ?_
  funext a; apply Fin.ext
  match a with
  | ⟨0, _⟩ => show win3_3.index t (0 : Fin 2) * 10000 + 1 * p.val = t.val * 10000 + p.val; rw [e0]; omega
  | ⟨1, _⟩ => show win3_3.index t (1 : Fin 2) * 64 + 1 * q.val = q.val; rw [e1]; omega

/-- The weight window's block is the whole weight at every point. -/
theorem iblk3_1_eq (c : Dev nD) (t : Fin cfg3.N) :
    (iblk3 V c 1 t : Vec Ideal S64x64 .f32) = (V c main_arg9 : S64x64.Idx → EReal) := by
  obtain ⟨-, -, -, e0, e1, -⟩ := idx_facts3 t
  funext y
  unfold iblk3
  rw [View.read_apply]
  show V c main_arg9 _ = V c main_arg9 _
  refine congrArg (V c main_arg9) ?_
  funext a; apply Fin.ext
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega

/-- The bias window's block is the whole bias row at every point. -/
theorem iblk3_2_eq (c : Dev nD) (t : Fin cfg3.N) :
    (iblk3 V c 2 t : Vec Ideal S1x64 .f32) = (V c main_v20 : S1x64.Idx → EReal) := by
  obtain ⟨-, -, -, -, -, e0, e1, -⟩ := idx_facts3 t
  funext y
  unfold iblk3
  rw [View.read_apply]
  show V c main_v20 _ = V c main_v20 _
  refine congrArg (V c main_v20) ?_
  funext a; apply Fin.ext
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-- What point t writes back is block t of the specification of the arrays the launch finds. -/
theorem flushed3_eq (c : Dev nD) (t : Fin cfg3.N) :
    (dat3 (F := Ideal) V c).flushed 4 t
      = ((cfg3.win 4).blk t).view.read (Elt Ideal)
          (Spec.relu (Spec.lin (E := 100000) (K := 64) (N := 64) (V c main_v19) (V c main_v12) (V c main_arg9)
            (fun q => V c main_v20 (ix2 0 (q 0))))) := by
  show (cfg3.win 4).cut (grid3.coords t) ((dat3 V c).after 4 t) = _
  rw [after3_4]
  unfold out3_4
  rw [View.canon_unit_zero hz]
  simp only [View.ld_unit_zero (S := S10000x64) hz, View.ld_unit_zero (S := S64x64) hz, View.ld_unit_zero (S := S1x64) hz]
  rw [pay3_eq, iblk3_1_eq, iblk3_2_eq]
  funext j
  obtain ⟨p, q, rfl⟩ : ∃ (p : Fin 10000) (q : Fin 64), j = ix2 p q := ⟨j 0, j 1, eq_ix2 j⟩
  have hp : t.val * 10000 + p.val < 100000 := by
    have := (idx_facts3 t).1; have := p.isLt; omega
  rw [View.read_apply, emb3_4 t p q hp]
  exact relu_lin_rows _ _ _ _ _ _ p ⟨t.val * 10000 + p.val, hp⟩ q (iblk3_3_apply V c t p q hp)
    (fun k => iblk3_0_apply V c t p k hp)

/-- An index of the array is in point t's block iff each coordinate is in the block's range on its axis. -/
theorem mem_blk3 (t : Fin cfg3.N) (i : S100000x64.Idx) :
    i ∈ ((cfg3.win 4).blk t).view.set
      ↔ ∀ a : Fin 2, win3_4.index t a * S10000x64.size a ≤ (i a).val
          ∧ (i a).val < win3_4.index t a * S10000x64.size a + S10000x64.size a := by
  show i ∈ ((View.whole main_v21).slice (win3_4.rect t)).set ↔ _
  rw [View.set_slice_whole, Rect.mem_set_unit]
  exact Iff.rfl

/-- Every index of the output array is in some point's block: row r is in block r / 10000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto3 ⟨(i 0).val / 10000, by omega⟩
  have ht' : t.val = (i 0).val / 10000 := ht
  obtain ⟨-, -, -, -, -, -, -, -, -, e0, e1⟩ := idx_facts3 t
  refine ⟨t, flush3_4 t, ?_⟩
  rw [mem_blk3]
  intro a
  match a with
  | ⟨0, _⟩ =>
    show win3_4.index t (0 : Fin 2) * 10000 ≤ (i 0).val ∧ (i 0).val < win3_4.index t (0 : Fin 2) * 10000 + 10000
    rw [e0, ht']; omega
  | ⟨1, _⟩ =>
    show win3_4.index t (1 : Fin 2) * 64 ≤ (i 1).val ∧ (i 1).val < win3_4.index t (1 : Fin 2) * 64 + 64
    rw [e1]; omega

end NodeRelu

/-! ## The output arrays -/

/-- Launch 1: the node update of the first layer. The bias window is the [1 × 64] row; the specification takes it as a vector. -/
theorem final1 (c : Dev nD) :
    (dat1 (F := Ideal) V c).arrAt 4 cfg1.N
      = Spec.relu (Spec.lin (E := 100000) (K := 64) (N := 64) (V c main_v10) (V c main_arg0) (V c main_arg5)
          (fun q => V c main_v11 (ix2 0 (q 0)))) :=
  (dat1 (F := Ideal) V c).arrAt_eq_of_cover 4 _ (fun t _ => NodeRelu.flushed1_eq V c t) NodeRelu.cover1

/-- Launch 3: the node update of the second layer. -/
theorem final3 (c : Dev nD) :
    (dat3 (F := Ideal) V c).arrAt 4 cfg3.N
      = Spec.relu (Spec.lin (E := 100000) (K := 64) (N := 64) (V c main_v19) (V c main_v12) (V c main_arg9)
          (fun q => V c main_v20 (ix2 0 (q 0)))) :=
  (dat3 (F := Ideal) V c).arrAt_eq_of_cover 4 _ (fun t _ => NodeRelu.flushed3_eq V c t) NodeRelu.cover3

end Cert.KernelIdeal.RegionValue

end
-- ==== Proof.LogSoftmax.lean ====
/-
  What the last node-update launch leaves in its output array: the row-wise log-softmax of the summed messages plus
  the root term plus the bias, as one function of the arrays the launch finds.
-/
import proofs.«429120_j77498389889734_1_alg».proof.Proof.Gen.KernelIdeal.Frame
import proofs.«429120_j77498389889734_1_alg».proof.Proof.Spec
import proofs.«429120_j77498389889734_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

namespace LogSoftmaxRows

/-! ## Layout steps of the row operations, read at an index -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The word of −∞ is the bottom of the extended reals. -/
theorem ofBits_neg_inf_f32 : Ideal.ofBits .f32 0xFF800000#32 = ⊥ := by simp [Ideal.ofBits, Ideal.ieee]

/-! ## The two row reductions, read at a row -/

/-- The index a reduction over the column axis reads at row p and column r. -/
theorem lift_row (h : S10000x4.Reduces [1] S10000) (p : Fin 10000) (r : Fin 4) : h.lift (ix1 p) r = ix2 p r := by
  funext a
  apply Fin.ext
  match a with
  | ⟨0, _⟩ => rfl
  | ⟨1, _⟩ => rfl

/-- The maximum over the columns, from −∞, at row p: the row's largest entry. -/
theorem rowmax_read (y : FVec Ideal S10000x4 .f32) (h : S10000x4.Reduces [1] S10000) (hφ : FKind.Formats .f32)
    (hacc : (0xFF800000#32 : BitVec 32) = FKind.maximumf.neutral .f32 hφ) (p : Fin 10000) :
    multiReduction (F := Ideal) .maximumf [1] S10000 y 0xFF800000#32 h hφ hacc (ix1 p)
      = Spec.rowmax (E := 10000) (N := 4) y p := by
  refine (Ideal.multiReduction_maximumf_single y 0xFF800000#32 h hφ hacc (ix1 p)).trans ?_
  have e : (y ∘ h.lift (ix1 p)) = fun r : Fin 4 => y (ix2 p r) := funext fun r => congrArg y (lift_row h p r)
  rw [e]
  show (Finset.univ : Finset (Fin 4)).fold max (Ideal.ofBits .f32 0xFF800000#32) _ = _
  rw [ofBits_neg_inf_f32]
  rfl

/-- The sum over the columns, from zero, at row p. -/
theorem rowsum_read (z : FVec Ideal S10000x4 .f32) (h : S10000x4.Reduces [1] S10000) (hφ : FKind.Formats .f32)
    (hacc : (0x00000000#32 : BitVec 32) = FKind.add.neutral .f32 hφ) (p : Fin 10000) :
    multiReduction (F := Ideal) .add [1] S10000 z 0x00000000#32 h hφ hacc (ix1 p) = ∑ r : Fin 4, z (ix2 p r) :=
  (Ideal.multiReduction_add_single z 0x00000000#32 h hφ hacc (ix1 p)).trans
    (Finset.sum_congr rfl fun r _ => congrArg z (lift_row h p r))

/-! ## The body's value on a block -/

/-- The row operations of the body, on any block y: subtract each row's maximum, then the logarithm of the row's sum of
    exponentials. -/
theorem lsm_read (y : FVec Ideal S10000x4 .f32) (hr : S10000x4.Reduces [1] S10000) (hφ hφ' : FKind.Formats .f32)
    (hm : (0xFF800000#32 : BitVec 32) = FKind.maximumf.neutral .f32 hφ)
    (ha : (0x00000000#32 : BitVec 32) = FKind.add.neutral .f32 hφ')
    (hc : S10000.ShapeCasts S10000x1) (hb : S10000x1.Broadcasts S10000x4) :
    subf (subf y (broadcastTo S10000x4 (shapeCast S10000x1
        (multiReduction (F := Ideal) .maximumf [1] S10000 y 0xFF800000#32 hr hφ hm) hc) hb))
      (broadcastTo S10000x4 (log (shapeCast S10000x1
        (multiReduction (F := Ideal) .add [1] S10000 (exp (subf y (broadcastTo S10000x4 (shapeCast S10000x1
          (multiReduction (F := Ideal) .maximumf [1] S10000 y 0xFF800000#32 hr hφ hm) hc) hb)))
          0x00000000#32 hr hφ' ha) hc)) hb)
      = Spec.lsm (E := 10000) (N := 4) y := by
  funext j
  obtain ⟨p, q, rfl⟩ : ∃ (p : Fin 10000) (q : Fin 4), j = ix2 p q := ⟨j 0, j 1, eq_ix2 j⟩
  have hM : ∀ r : Fin 4, broadcastTo S10000x4 (shapeCast S10000x1
        (multiReduction (F := Ideal) .maximumf [1] S10000 y 0xFF800000#32 hr hφ hm) hc) hb (ix2 p r)
      = Spec.rowmax (E := 10000) (N := 4) y p := fun r =>
    (broadcastTo_a1_ab_apply _ hb p r).trans ((shapeCast_a_a1_apply _ hc p 0).trans (rowmax_read y hr hφ hm p))
  have hS : broadcastTo S10000x4 (log (shapeCast S10000x1
        (multiReduction (F := Ideal) .add [1] S10000 (exp (subf y (broadcastTo S10000x4 (shapeCast S10000x1
          (multiReduction (F := Ideal) .maximumf [1] S10000 y 0xFF800000#32 hr hφ hm) hc) hb)))
          0x00000000#32 hr hφ' ha) hc)) hb (ix2 p q)
      = Ideal.log (∑ r : Fin 4, Ideal.exp (y (ix2 p r) - Spec.rowmax (E := 10000) (N := 4) y p)) := by
    refine (broadcastTo_a1_ab_apply _ hb p q).trans ?_
    refine congrArg Ideal.log ?_
    refine (shapeCast_a_a1_apply _ hc p 0).trans ?_
    refine (rowsum_read _ hr hφ' ha p).trans ?_
    exact Finset.sum_congr rfl fun r _ => congrArg Ideal.exp (congrArg (y (ix2 p r) - ·) (hM r))
  show (y (ix2 p q) - _) - _ = _
  rw [hM q, hS]
  rfl

/-- The printed contraction record of the root product is the plain pattern rows × inner by inner × columns. -/
theorem dot_root_plain : dot_S10000x64_S64x4_S10000x4_1_0_0_1_n_n = DotDims.plain 10000 64 4 := rfl

/-- The value before the row operations, on a block: the summed messages plus the rows times the root weight plus
    the bias row. Rounding to the narrow format is the identity on the extended reals. -/
theorem lin_read (x : Vec Ideal S10000x64 .f32) (w : Vec Ideal S64x4 .f32) (agg : Vec Ideal S10000x4 .f32)
    (b : Vec Ideal S1x4 .f32) (hcx : S10000x64.ShapeCasts S10000x64) (hlt : FTy.bits .bf16 < FTy.bits .f32)
    (hca : S10000x4.ShapeCasts S10000x4) (hcb : S1x4.ShapeCasts S1x4) (hbb : S1x4.Broadcasts S10000x4) :
    addf (addf (shapeCast S10000x4 agg hca)
        (matmul (F := Ideal) dot_S10000x64_S64x4_S10000x4_1_0_0_1_n_n none (truncf .bf16 (shapeCast S10000x64 x hcx) hlt)
          (truncf .bf16 w hlt) (constant S10000x4 .f32 0x00000000#32)))
      (broadcastTo S10000x4 (shapeCast S1x4 b hcb) hbb)
      = Spec.lin (E := 10000) (K := 64) (N := 4) agg x w (fun q => b (ix2 0 (q 0))) := by
  funext j
  obtain ⟨p, q, rfl⟩ : ∃ (p : Fin 10000) (q : Fin 4), j = ix2 p q := ⟨j 0, j 1, eq_ix2 j⟩
  rw [dot_root_plain]
  refine congrArg₂ (· + ·) (congrArg₂ (· + ·) ?_ ?_) ?_
  · exact congrFun (shapeCast_self agg hca) _
  · refine (Cert.LibPlainDot.matmul_zero_apply (M := 10000) (K := 64) (N := 4) none _ _ (ix2 p q)).trans ?_
    exact Finset.sum_congr rfl fun k _ => congrArg₂ (· * ·) (congrFun (shapeCast_self x hcx) _) rfl
  · exact (broadcastTo_1b_ab_apply _ hbb p q).trans (congrFun (shapeCast_self b hcb) _)

/-- The body's stored value on a block is the log-softmax of that linear value. -/
theorem pay_eq (x : Vec Ideal S10000x64 .f32) (w : Vec Ideal S64x4 .f32) (agg : Vec Ideal S10000x4 .f32)
    (b : Vec Ideal S1x4 .f32) :
    k5_pay1 (F := Ideal) x w agg b
      = Spec.lsm (Spec.lin (E := 10000) (K := 64) (N := 4) agg x w (fun q => b (ix2 0 (q 0)))) := by
  unfold k5_pay1
  dsimp only
  rw [lin_read]
  exact lsm_read _ _ _ _ _ _ _ _

/-! ## From a block of rows to the array -/

/-- The log-softmax of the linear value of a block of rows is the block of the whole array's: row p of the block is
    row ι p of the array, the weight and the bias are shared. Every step works row by row. -/
theorem lsm_lin_block {E₁ E₂ K N : ℕ} (ι : Fin E₁ → Fin E₂)
    (a : (⟨2, ![E₁, N]⟩ : Shape).Idx → EReal) (A : (⟨2, ![E₂, N]⟩ : Shape).Idx → EReal)
    (x : (⟨2, ![E₁, K]⟩ : Shape).Idx → EReal) (X : (⟨2, ![E₂, K]⟩ : Shape).Idx → EReal)
    (w W : (⟨2, ![K, N]⟩ : Shape).Idx → EReal) (b B : (⟨1, ![N]⟩ : Shape).Idx → EReal)
    (ha : ∀ p q, a (ix2 p q) = A (ix2 (ι p) q)) (hx : ∀ p k, x (ix2 p k) = X (ix2 (ι p) k))
    (hw : ∀ k q, w (ix2 k q) = W (ix2 k q)) (hb : ∀ q, b (ix1 q) = B (ix1 q)) (p : Fin E₁) (q : Fin N) :
    Spec.lsm (Spec.lin a x w b) (ix2 p q) = Spec.lsm (Spec.lin A X W B) (ix2 (ι p) q) := by
  have hy : ∀ r : Fin N, Spec.lin a x w b (ix2 p r) = Spec.lin A X W B (ix2 (ι p) r) := fun r => by
    show (a (ix2 p r) + ∑ k : Fin K, x (ix2 p k) * w (ix2 k r)) + b (ix1 r)
      = (A (ix2 (ι p) r) + ∑ k : Fin K, X (ix2 (ι p) k) * W (ix2 k r)) + B (ix1 r)
    rw [ha, hb]
    exact congrArg (fun s => (A (ix2 (ι p) r) + s) + B (ix1 r))
      (Finset.sum_congr rfl fun k _ => by rw [hx, hw])
  have hM : Spec.rowmax (Spec.lin a x w b) p = Spec.rowmax (Spec.lin A X W B) (ι p) := by
    unfold Spec.rowmax
    exact congrArg (fun f => (Finset.univ : Finset (Fin N)).fold max ⊥ f) (funext hy)
  show (Spec.lin a x w b (ix2 p q) - Spec.rowmax (Spec.lin a x w b) p)
      - Ideal.log (∑ r : Fin N, Ideal.exp (Spec.lin a x w b (ix2 p r) - Spec.rowmax (Spec.lin a x w b) p))
    = (Spec.lin A X W B (ix2 (ι p) q) - Spec.rowmax (Spec.lin A X W B) (ι p))
      - Ideal.log (∑ r : Fin N, Ideal.exp (Spec.lin A X W B (ix2 (ι p) r) - Spec.rowmax (Spec.lin A X W B) (ι p)))
  rw [hM, hy q]
  exact congrArg (fun s => _ - Ideal.log s) (Finset.sum_congr rfl fun r _ => by rw [hy r])

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows take block t, the weight and the bias their one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The block of the summed messages at point t is rows 10000 t … 10000 t + 9999 of the array. -/
theorem iblk5_3_apply (c : Dev nD) (t : Fin cfg5.N) (y : S10000x4.Idx) (i : S100000x4.Idx)
    (h0 : (i 0).val = t.val * 10000 + (y 0).val) (h1 : (i 1).val = (y 1).val) :
    (iblk5 V c 3 t : Vec Ideal S10000x4 .f32) y = (V c main_v28 : S100000x4.Idx → EReal) i := by
  obtain ⟨-, -, -, -, -, -, e0, e1, -, -⟩ := idx_facts5 t
  unfold iblk5
  rw [View.read_apply]
  show V c main_v28 _ = V c main_v28 _
  congr 1
  funext a
  apply Fin.ext
  match a with
  | ⟨0, _⟩ => show win5_3.index t (0 : Fin 2) * 10000 + 1 * (y 0).val = (i 0).val; omega
  | ⟨1, _⟩ => show win5_3.index t (1 : Fin 2) * 4 + 1 * (y 1).val = (i 1).val; omega

/-- The block of node rows at point t is rows 10000 t … 10000 t + 9999 of the array. -/
theorem iblk5_0_apply (c : Dev nD) (t : Fin cfg5.N) (y : S10000x64.Idx) (i : S100000x64.Idx)
    (h0 : (i 0).val = t.val * 10000 + (y 0).val) (h1 : (i 1).val = (y 1).val) :
    (iblk5 V c 0 t : Vec Ideal S10000x64 .f32) y = (V c main_v21 : S100000x64.Idx → EReal) i := by
  obtain ⟨e0, e1, -, -, -, -, -, -, -, -⟩ := idx_facts5 t
  unfold iblk5
  rw [View.read_apply]
  show V c main_v21 _ = V c main_v21 _
  congr 1
  funext a
  apply Fin.ext
  match a with
  | ⟨0, _⟩ => show win5_0.index t (0 : Fin 2) * 10000 + 1 * (y 0).val = (i 0).val; omega
  | ⟨1, _⟩ => show win5_0.index t (1 : Fin 2) * 64 + 1 * (y 1).val = (i 1).val; omega

/-- The root weight's block at every point is the whole array. -/
theorem iblk5_1_apply (c : Dev nD) (t : Fin cfg5.N) (y : S64x4.Idx) :
    (iblk5 V c 1 t : Vec Ideal S64x4 .f32) y = (V c main_arg13 : S64x4.Idx → EReal) y := by
  obtain ⟨-, -, e0, e1, -, -, -, -, -, -⟩ := idx_facts5 t
  unfold iblk5
  rw [View.read_apply]
  show V c main_arg13 _ = V c main_arg13 _
  congr 1
  funext a
  apply Fin.ext
  match a with
  | ⟨0, _⟩ => show win5_1.index t (0 : Fin 2) * 64 + 1 * (y 0).val = (y 0).val; omega
  | ⟨1, _⟩ => show win5_1.index t (1 : Fin 2) * 4 + 1 * (y 1).val = (y 1).val; omega

/-- The bias row's block at every point is the whole array. -/
theorem iblk5_2_apply (c : Dev nD) (t : Fin cfg5.N) (y : S1x4.Idx) :
    (iblk5 V c 2 t : Vec Ideal S1x4 .f32) y = (V c main_v29 : S1x4.Idx → EReal) y := by
  obtain ⟨-, -, -, -, e0, e1, -, -, -, -⟩ := idx_facts5 t
  unfold iblk5
  rw [View.read_apply]
  show V c main_v29 _ = V c main_v29 _
  congr 1
  funext a
  apply Fin.ext
  match a with
  | ⟨0, _⟩ => show win5_2.index t (0 : Fin 2) * 1 + 1 * (y 0).val = (y 0).val; omega
  | ⟨1, _⟩ => show win5_2.index t (1 : Fin 2) * 4 + 1 * (y 1).val = (y 1).val; omega

/-- Row p of the block at point t is row 10000 t + p of the array. -/
def rowAt (t : Fin cfg5.N) (p : Fin 10000) : Fin 100000 :=
  ⟨t.val * 10000 + p.val, by have := t.isLt; have hN : cfg5.N = 10 := N_5; omega⟩

/-- Where an entry of the output's block at point t sits in the array. -/
theorem emb5_4 (t : Fin cfg5.N) (p : Fin 10000) (q : Fin 4) :
    ((cfg5.win 4).blk t).view.emb (ix2 p q) = (ix2 (rowAt t p) q : S100000x4.Idx) := by
  obtain ⟨-, -, -, -, -, -, -, -, e0, e1⟩ := idx_facts5 t
  funext a
  apply Fin.ext
  match a with
  | ⟨0, _⟩ => show win5_4.index t (0 : Fin 2) * 10000 + 1 * p.val = t.val * 10000 + p.val; omega
  | ⟨1, _⟩ => show win5_4.index t (1 : Fin 2) * 4 + 1 * q.val = q.val; omega

/-- The array the launch leaves: the log-softmax of the linear value of the arrays it finds. -/
abbrev G5 (c : Dev nD) : S100000x4.Idx → EReal :=
  Spec.lsm (Spec.lin (E := 100000) (K := 64) (N := 4) (V c main_v28) (V c main_v21) (V c main_arg13)
    (fun q => V c main_v29 (ix2 0 (q 0))))

/-- What point t writes back is block t of that array. -/
theorem flushed5_eq (c : Dev nD) (t : Fin cfg5.N) :
    (dat5 (F := Ideal) V c).flushed 4 t = ((cfg5.win 4).blk t).view.read (Elt Ideal) (G5 V c) := by
  show (cfg5.win 4).cut (grid5.coords t) ((dat5 (F := Ideal) V c).after 4 t) = _
  rw [after5_4]
  unfold out5_4
  rw [View.canon_unit_zero hz]
  simp only [View.ld_unit_zero (S := S10000x64) hz, View.ld_unit_zero (S := S64x4) hz,
    View.ld_unit_zero (S := S10000x4) hz, View.ld_unit_zero (S := S1x4) hz]
  rw [pay_eq]
  funext j
  obtain ⟨p, q, rfl⟩ : ∃ (p : Fin 10000) (q : Fin 4), j = ix2 p q := ⟨j 0, j 1, eq_ix2 j⟩
  show Spec.lsm (Spec.lin (E := 10000) (K := 64) (N := 4) (iblk5 V c 3 t) (iblk5 V c 0 t) (iblk5 V c 1 t)
      fun q => iblk5 V c 2 t (ix2 0 (q 0))) (ix2 p q) = G5 V c (((cfg5.win 4).blk t).view.emb (ix2 p q))
  rw [emb5_4]
  exact lsm_lin_block (rowAt t) (iblk5 V c 3 t) (V c main_v28) (iblk5 V c 0 t) (V c main_v21) (iblk5 V c 1 t)
    (V c main_arg13) (fun q => iblk5 V c 2 t (ix2 0 (q 0))) (fun q => V c main_v29 (ix2 0 (q 0)))
    (fun p q => iblk5_3_apply V c t (ix2 p q) (ix2 (rowAt t p) q) rfl rfl)
    (fun p k => iblk5_0_apply V c t (ix2 p k) (ix2 (rowAt t p) k) rfl rfl)
    (fun k q => iblk5_1_apply V c t (ix2 k q)) (fun q => iblk5_2_apply V c t (ix2 0 q)) p q

/-- An index of the array is in point t's block exactly when each coordinate is in the block's range on its axis. -/
theorem mem_blk5 (t : Fin cfg5.N) (i : S100000x4.Idx) :
    i ∈ ((cfg5.win 4).blk t).view.set ↔ ∀ a : Fin 2, win5_4.index t a * S10000x4.size a ≤ (i a).val
      ∧ (i a).val < win5_4.index t a * S10000x4.size a + S10000x4.size a := by
  show i ∈ ((View.whole main_v30).slice (win5_4.rect t)).set ↔ _
  rw [View.set_slice_whole, Rect.mem_set_unit]
  exact Iff.rfl

/-- Every row of the array is in the block of the point its number divided by 10000 names. -/
theorem cover5 (i : S100000x4.Idx) :
    ∃ t : Fin cfg5.N, (cfg5.win 4).flush t = true ∧ i ∈ ((cfg5.win 4).blk t).view.set := by
  have hN : cfg5.N = 10 := N_5
  have hi0 : (i 0).val < 100000 := (i 0).isLt
  have hi1 : (i 1).val < 4 := (i 1).isLt
  have ht : (i 0).val / 10000 < cfg5.N := by omega
  obtain ⟨-, -, -, -, -, -, -, -, e0, e1⟩ := idx_facts5 ⟨(i 0).val / 10000, ht⟩
  refine ⟨⟨(i 0).val / 10000, ht⟩, flush5_4 _, ?_⟩
  rw [mem_blk5]
  intro a
  match a with
  | ⟨0, _⟩ =>
    show win5_4.index ⟨(i 0).val / 10000, ht⟩ (0 : Fin 2) * 10000 ≤ (i 0).val
      ∧ (i 0).val < win5_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win5_4.index ⟨(i 0).val / 10000, ht⟩ (1 : Fin 2) * 4 ≤ (i 1).val
      ∧ (i 1).val < win5_4.index ⟨(i 0).val / 10000, ht⟩ (1 : Fin 2) * 4 + 4
    rw [e1]
    omega

end LogSoftmaxRows

open LogSoftmaxRows

variable (V : (c : Dev nD) → (b : Ref sig .tc) → Buf (Elt Ideal) ((c : Thread nD τ).loc b))

/-- Launch 5: the node update of the output layer, followed by the log-softmax of each row of four. -/
theorem final5 (c : Dev nD) :
    (dat5 (F := Ideal) V c).arrAt 4 cfg5.N
      = Spec.lsm (Spec.lin (E := 100000) (K := 64) (N := 4) (V c main_v28) (V c main_v21) (V c main_arg13)
          (fun q => V c main_v29 (ix2 0 (q 0)))) :=
  (dat5 (F := Ideal) V c).arrAt_eq_of_cover 4 (G5 V c) (fun t _ => flushed5_eq V c t) cover5

end Cert.KernelIdeal.RegionValue

end
-- ==== Proof.TakeMask.lean ====
/-
  Under the precondition every source index lies in [0, 100000), and then the mask of `jnp.take` is all ones: the
  rows it returns are the gathered rows.
-/
import proofs.«429120_j77498389889734_1_alg».proof.Proof.KParts
import proofs.«429120_j77498389889734_1_alg».proof.Defs
import proofs.«429120_j77498389889734_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Parts

open Idealize.ShloMosaic Idealize.ShloMosaic.TcCoe Idealize.SL.Sem Idealize.ShloMosaic.ValueIdx
open Cert.KernelIdeal Cert.KernelIdeal.Facts₀

/-! ### An `and`-reduction of ones -/

/-- A left fold by `and` from 1 over words that are all 1 stays 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- A `stablehlo.reduce` by `and`, from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ### One word -/

/-- A word that is at least 0 and below 100000, both read signed, has a value below 100000. -/
theorem word_lt (s : BitVec 32) (h0 : IntOp.cmpi .sge s 0#32 = 1#1) (h1 : IntOp.cmpi .slt s 100000#32 = 1#1) :
    s.toNat < 100000 := by
  unfold IntOp.cmpi at h0 h1
  rw [StableHlo.Predicate.ofBool_eq_one_iff] at h0 h1
  have z : (0#32 : BitVec 32).toInt = 0 := by decide
  have k : (100000#32 : BitVec 32).toInt = 100000 := by decide
  simp only [BitVec.sle, BitVec.slt, z, k, decide_eq_true_eq] at h0 h1
  have hlt := s.isLt
  rw [BitVec.toInt_eq_toNat_cond] at h0 h1
  split at h0 <;> omega

/-- Such a word is not negative: the wrap's test fails on it. -/
theorem not_neg (s : BitVec 32) (hs : s.toNat < 100000) : IntOp.cmpi .slt s 0#32 ≠ 1 := by
  intro hc
  have := (StableHlo.Predicate.slt_iff_toNat (a := s) (b := 0#32) (by omega) (by decide)).1 hc
  simp at this

/-- Such a word passes both range tests of the mask. -/
theorem tests_pass (s : BitVec 32) (hs : s.toNat < 100000) :
    IntOp.andi (IntOp.cmpi .sge s 0#32) (IntOp.cmpi .sle s 99999#32) = 1#1 := by
  have a : IntOp.cmpi .sge s 0#32 = 1#1 :=
    (StableHlo.Predicate.sge_iff_toNat (a := s) (b := 0#32) (by omega) (by decide)).2 (by simp)
  have b : IntOp.cmpi .sle s 99999#32 = 1#1 :=
    (StableHlo.Predicate.sle_iff_toNat (a := s) (b := 99999#32) (by omega) (by decide)).2
      (by have : (99999#32 : BitVec 32).toNat = 99999 := by decide
          omega)
  rw [a, b]; decide

/-! ### The mask -/

/-- The value of every source word, under the range hypothesis. -/
theorem src_lt (ei : IVec S2x1600000 32) (h : InRange ei) (q : S1600000.Idx) : (src ei q).toNat < 100000 :=
  word_lt _ (h q).1 (h q).2

/-- In range, the wrap leaves every source index alone. -/
theorem wrap_src (ei : IVec S2x1600000 32) (h : InRange ei) (q : S1600000.Idx) : wrap (src ei) q = src ei q := by
  show Scalar.select (IntOp.cmpi .slt (src ei q) 0#32) _ (src ei q) = src ei q
  unfold Scalar.select
  rw [if_neg (not_neg _ (src_lt ei h q))]

/-- In range, both range tests pass on every edge. -/
theorem inb_one (ei : IVec S2x1600000 32) (h : InRange ei) (p : S1600000.Idx) : inb ei p = 1#1 := by
  unfold inb
  refine reduce_andi_ones _ _ _ _ (fun k => ?_) (fun _ => rfl) p
  obtain ⟨q, hq⟩ : ∃ q, idx ei k = wrap (src ei) q := ⟨_, rfl⟩
  show IntOp.andi (IntOp.cmpi .sge (idx ei k) 0#32) (IntOp.cmpi .sle (idx ei k) 99999#32) = 1#1
  rw [hq, wrap_src ei h q]
  exact tests_pass _ (src_lt ei h q)

/-- A select whose mask is a per-edge bit laid along the rows, all of them 1, returns its first array. -/
theorem select_rows_ones {α : Type} (c : IVec S1600000 1) (a b : S1600000x64.Idx → α) (hc : ∀ p, c p = 1#1) :
    select (broadcastInDim S1600000x64 ![0] bcast_S1600000_S1600000x64_0 c) a b = a := by
  funext j
  show Scalar.select (c _) (a j) (b j) = a j
  rw [hc]
  exact if_pos rfl

/-- With every source index in range, the wrap leaves it alone, both range tests pass on every edge, and the
    select returns the gathered row everywhere. -/
theorem take_eq_gat (ei : IVec S2x1600000 32) (h : InRange ei) : take ei = gat ei := by
  funext x
  exact select_rows_ones (inb ei) _ _ (inb_one ei h)

/-! ### The precondition -/

/-- The last part of the precondition is a conjunction whose last two conjuncts are the two range tests,
    each reduced by `and` over all edges. -/
theorem inRange_of_part4 [hP : Cert.Pre_finite_inputs.Facts] (ei : IVec S2x1600000 32)
    (a b : IVec Cert.Pre_finite_inputs.S_ 1)
    (e : Cert.Pre_finite_inputs.fn_part4 (F := Ideal) ei a b ValueIdx.ix0 = 1#1) : InRange ei := by
  haveI : Subsingleton Cert.Pre_finite_inputs.S_.Idx := ⟨fun a b => funext fun d => d.elim0⟩
  unfold Cert.Pre_finite_inputs.fn_part4 at e
  dsimp only at e
  obtain ⟨e1, hlt⟩ := IntOp.andi_eq_one.1 e
  obtain ⟨-, hge⟩ := IntOp.andi_eq_one.1 e1
  intro i
  exact ⟨Host.reduce_andi_all _ _ _ _ _ hge i, Host.reduce_andi_all _ _ _ _ _ hlt i⟩

/-- The precondition's last two conjuncts say exactly that every source index is in range. -/
theorem inRange_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) := by
  have e := congrFun (h c) ValueIdx.ix0
  exact inRange_of_part4 _ _ _ e

end Cert.KernelIdeal.Parts

end
-- ==== Proof.KValue.lean ====
/-
  The kernel's program run, with its result named: under the precondition's range fact on the source indices the
  result buffer ends at the three-layer network of the shared specification, its source rows read by the plain gather.
-/
import proofs.«429120_j77498389889734_1_alg».proof.Proof.KRun
import proofs.«429120_j77498389889734_1_alg».proof.Proof.Thread6
import proofs.«429120_j77498389889734_1_alg».proof.Proof.EdgeMsg
import proofs.«429120_j77498389889734_1_alg».proof.Proof.NodeRelu
import proofs.«429120_j77498389889734_1_alg».proof.Proof.LogSoftmax
import proofs.«429120_j77498389889734_1_alg».proof.Proof.TakeMask

set_option maxRecDepth 16384

noncomputable section

namespace Cert.KernelIdeal.KValue

open Idealize.ShloMosaic Idealize.ShloMosaic.TcCoe Idealize.SL.Sem
open Cert.KernelIdeal Cert.KernelIdeal.Gen Cert.KernelIdeal.Parts Cert.KernelIdeal.Thread

variable (m : (ℓ : Loc nD τ sig) → Buf (Elt Ideal) ℓ) (ρ : Dev nD → PrngReg)

/-- The network's value at the arguments @main is started with. -/
def value (c : Dev nD) : FVec Ideal S100000x4 .f32 :=
  Net.net (Nn := 100000) (Ne := 1600000) (K := 64) (N := 4)
    (gat (ei m c)) (sca (ei m c)) (sca' (ei m c)) (x0 m c) (ea m c)
    (wm1 m c) (bm1 m c) (wr1 m c) (b1 m c) (wm2 m c) (bm2 m c) (wr2 m c) (b2 m c) (wm3 m c) (bm3 m c) (wr3 m c) (b3 m c)

/-- With every source index in range: every weakly fair execution of the kernel's @main terminates, nothing faulting,
    with the result buffer at the network's value and the arguments unchanged. The six launches' values feed the
    boundary-by-boundary reading; the mask of `jnp.take` is all ones under the range fact, so the taken rows are the
    gathered rows. -/
theorem run (hr : ∀ c : Dev nD, InRange (ei m c)) :
    θ_run defs (onTc (τ := τ) (main (F := Ideal))) ⟨m, fun _ => 0, ρ⟩ (fun r => ∀ c : Dev nD,
      r.2.mem ((c.tc : Thread nD τ).loc main_v30) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨(h c).1.trans ((W15_v30 m ρ c RegionValue.final0 RegionValue.final1 RegionValue.final2 RegionValue.final3
          RegionValue.final4 RegionValue.final5).trans ((OUT_eq_net m c).trans (by
            unfold value; rw [take_eq_gat (ei m c) (hr c)]))),
        (h c).2⟩)
    (Cert.KernelIdeal.Named.run_named (F := Ideal) m ρ)

end Cert.KernelIdeal.KValue

end
-- ==== Proof.RefValue.lean ====
/-
  The reference's result as the three-layer network of the shared specification.

  The reference's result is one long composed term of host operations over the argument arrays. Four small
  facts, each over arbitrary arrays of the literal shapes, read its repeated stretches as the specification's
  functions: the messages of a layer, a node's row before the nonlinearity, the rectifier, and the row-wise
  log-softmax. The gather of source rows and the sums into target nodes are named and never opened. With the
  stretches rewritten, the term is the network of the specification, syntactically.
-/
import proofs.«429120_j77498389889734_1_alg».proof.Proof.RefRun
import proofs.«429120_j77498389889734_1_alg».proof.Proof.Net
import proofs.«429120_j77498389889734_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- Row 0 of the edge list: every edge's source node. -/
def src (ei : IVec S2x1600000 32) : IVec S1600000 32 :=
  shapeCast _ (extractStridedSlice S1x1600000 ![0, 0] ei slices_S2x1600000_S1x1600000_0_0) shapeCasts_S1x1600000_S1600000

/-- Row 1 of the edge list: every edge's target node. -/
def dst (ei : IVec S2x1600000 32) : IVec S1600000 32 :=
  shapeCast _ (extractStridedSlice S1x1600000 ![1, 0] ei slices_S2x1600000_S1x1600000_1_0) shapeCasts_S1x1600000_S1600000

/-- A negative node number counts from the end: it is replaced by itself plus the number of nodes. -/
def wrap (s : IVec S1600000 32) : IVec S1600000 32 :=
  select (cmpi .slt s (broadcastInDim S1600000 ![] bcast_S_S1600000 (constantI S_ 32 0#32))) (addi s (broadcastInDim S1600000 ![] bcast_S_S1600000 (constantI S_ 32 100000#32))) s

/-- The rows of a node array read at every edge's (wrapped) source. -/
def gat (ei : IVec S2x1600000 32) (x : FVec Ideal S100000x64 .f32) : FVec Ideal S1600000x64 .f32 :=
  Host.gather gather_S100000x64_S1600000x1_S1600000x64_1_0_n_n_0_1_164 x (broadcastInDim S1600000x1 ![0] bcast_S1600000_S1600000x1_0 (wrap (src ei)))

/-- The rows of an edge array summed into their target nodes, from zero, at the hidden width. -/
def sca (ei : IVec S2x1600000 32) (u : FVec Ideal S1600000x64 .f32) : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (dst ei)) u

/-- The same sum at the output width. -/
def sca' (ei : IVec S2x1600000 32) (u : FVec Ideal S1600000x4 .f32) : FVec Ideal S100000x4 .f32 :=
  Host.scatterAdd scatter_S100000x4_S1600000x1_S1600000x4_1_0_0_1 (broadcastInDim S100000x4 ![] bcast_S_S100000x4 (constant S_ .f32 0x00000000#32)) (broadcastInDim S1600000x1 ![0] bcast_S1600000_S1600000x1_0 (dst ei)) u

/-! ## Broadcasts read at an index -/

section Reads

variable {α : Type} {n m : Nat}

/-- A scalar broadcast to any shape reads the scalar everywhere. -/
theorem bscalar_apply {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

/-- A one-column array laid along the rows of an [n × m] rectangle reads, at (p, q), the column at (p, 0). -/
theorem bcol_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v (ix2 p q) (ix2 p 0) (fun a => match a with
    | ⟨0, _⟩ => by
      show p.val = if n = 1 then 0 else p.val
      have hp := p.isLt
      split <;> omega
    | ⟨1, _⟩ => by show 0 = if (1 : Nat) = 1 then 0 else q.val; rw [if_pos rfl])

/-- A one-row array laid down the columns of an [n × m] rectangle reads, at (p, q), the row at (0, q). -/
theorem brow_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v (ix2 p q) (ix2 0 q) (fun a => match a with
    | ⟨0, _⟩ => by show 0 = if (1 : Nat) = 1 then 0 else p.val; rw [if_pos rfl]
    | ⟨1, _⟩ => by
      show q.val = if m = 1 then 0 else q.val
      have hq := q.isLt
      split <;> omega)

/-- A vector as a one-row array reads, at (0, q), the vector at q. -/
theorem bvecRow_apply (h : (⟨1, ![m]⟩ : Shape).BroadcastsInDim ⟨2, ![1, m]⟩ ![1]) (v : (⟨1, ![m]⟩ : Shape).Idx → α)
    (q : Fin m) : broadcastInDim ⟨2, ![1, m]⟩ ![1] h v (ix2 0 q) = v (ix1 q) :=
  broadcastInDim_apply _ h v (ix2 0 q) (ix1 q) (fun a => match a with
    | ⟨0, _⟩ => by
      show q.val = if m = 1 then 0 else q.val
      have hq := q.isLt
      split <;> omega)

/-- A vector as a one-column array reads, at (p, 0), the vector at p. -/
theorem bvecCol_apply (h : (⟨1, ![n]⟩ : Shape).BroadcastsInDim ⟨2, ![n, 1]⟩ ![0]) (v : (⟨1, ![n]⟩ : Shape).Idx → α)
    (p : Fin n) : broadcastInDim ⟨2, ![n, 1]⟩ ![0] h v (ix2 p 0) = v (ix1 p) :=
  broadcastInDim_apply _ h v (ix2 p 0) (ix1 p) (fun a => match a with
    | ⟨0, _⟩ => by
      show p.val = if n = 1 then 0 else p.val
      have hp := p.isLt
      split <;> omega)

end Reads

/-! ## The four stretches of the reference's term -/

section Stretches

variable {E K N : Nat}

/-- The messages: the edge scalar times the source rows' product with the first weight, plus their product with the
    second. -/
theorem msg_eq (hb : (⟨2, ![E, 1]⟩ : Shape).BroadcastsInDim ⟨2, ![E, N]⟩ ![0, 1])
    (d : DotDims ⟨2, ![E, K]⟩ ⟨2, ![K, N]⟩ ⟨2, ![E, N]⟩) (hd : d = DotDims.plain E K N)
    (xj : FVec Ideal ⟨2, ![E, K]⟩ .f32) (a : FVec Ideal ⟨2, ![E, 1]⟩ .f32) (wm bm : FVec Ideal ⟨2, ![K, N]⟩ .f32) :
    addf (mulf (broadcastInDim ⟨2, ![E, N]⟩ ![0, 1] hb a) (Host.dotGeneral d none xj wm)) (Host.dotGeneral d none xj bm)
      = Spec.msg xj a wm bm := by
  subst hd
  funext j
  obtain ⟨p, q, rfl⟩ : ∃ p q, j = ix2 p q := ⟨j 0, j 1, eq_ix2 j⟩
  show FloatOps.addf (FloatOps.mulf (broadcastInDim ⟨2, ![E, N]⟩ ![0, 1] hb a (ix2 p q))
      (FloatOps.dotGeneral (DotDims.plain E K N) none .single xj wm (ix2 p q)))
      (FloatOps.dotGeneral (DotDims.plain E K N) none .single xj bm (ix2 p q)) = _
  rw [bcol_apply, LibPlainDot.dotGeneral_apply, LibPlainDot.dotGeneral_apply]
  rfl

/-- A node's row before the nonlinearity: the summed messages, plus the row's product with the root weight, plus the
    bias laid down the columns. -/
theorem lin_eq (h₁ : (⟨1, ![N]⟩ : Shape).BroadcastsInDim ⟨2, ![1, N]⟩ ![1])
    (h₂ : (⟨2, ![1, N]⟩ : Shape).BroadcastsInDim ⟨2, ![E, N]⟩ ![0, 1])
    (d : DotDims ⟨2, ![E, K]⟩ ⟨2, ![K, N]⟩ ⟨2, ![E, N]⟩) (hd : d = DotDims.plain E K N)
    (agg : FVec Ideal ⟨2, ![E, N]⟩ .f32) (x : FVec Ideal ⟨2, ![E, K]⟩ .f32) (w : FVec Ideal ⟨2, ![K, N]⟩ .f32)
    (b : FVec Ideal ⟨1, ![N]⟩ .f32) :
    addf (addf agg (Host.dotGeneral d none x w))
        (broadcastInDim ⟨2, ![E, N]⟩ ![0, 1] h₂ (broadcastInDim ⟨2, ![1, N]⟩ ![1] h₁ b))
      = Spec.lin agg x w b := by
  subst hd
  funext j
  obtain ⟨p, q, rfl⟩ : ∃ p q, j = ix2 p q := ⟨j 0, j 1, eq_ix2 j⟩
  show FloatOps.addf (FloatOps.addf (agg (ix2 p q)) (FloatOps.dotGeneral (DotDims.plain E K N) none .single x w (ix2 p q)))
      (broadcastInDim ⟨2, ![E, N]⟩ ![0, 1] h₂ (broadcastInDim ⟨2, ![1, N]⟩ ![1] h₁ b) (ix2 p q)) = _
  rw [brow_apply, bvecRow_apply, LibPlainDot.dotGeneral_apply]
  rfl

/-- The rectifier: the larger of an entry and the zero constant. -/
theorem relu_eq (h : (⟨0, ![]⟩ : Shape).BroadcastsInDim ⟨2, ![E, N]⟩ ![]) (y : FVec Ideal ⟨2, ![E, N]⟩ .f32) :
    maximumf y (broadcastInDim ⟨2, ![E, N]⟩ ![] h (constant ⟨0, ![]⟩ .f32 0x00000000#32)) = Spec.relu y := by
  funext j
  show FloatOps.maximumf (y j) (broadcastInDim ⟨2, ![E, N]⟩ ![] h (constant ⟨0, ![]⟩ .f32 0x00000000#32) j) = _
  rw [bscalar_apply]
  show max (y j) (Ideal.ofBits .f32 0x00000000#32) = max (y j) 0
  rw [Ideal.ofBits_zero_f32]

end Stretches

section Softmax

variable {E N : Nat}

/-- The reduced index p with the coordinate k put back on the second axis is (p, k). -/
theorem lift_row (hr : (⟨2, ![E, N]⟩ : Shape).Reduces [1] (⟨1, ![E]⟩ : Shape)) (p : Fin E)
    (k : Fin ((⟨2, ![E, N]⟩ : Shape).size 1)) : hr.lift (ix1 p) k = ix2 p (⟨k.val, k.isLt⟩ : Fin N) := by
  funext c; apply Fin.ext
  fin_cases c <;> rfl

/-- The bit pattern of −∞ is the least extended real. -/
theorem ofBits_neg_inf : Ideal.ofBits .f32 0xFF800000#32 = (⊥ : EReal) := by
  simp [Ideal.ofBits, Ideal.ieee]

/-- The host's row maximum (a reduce with a maximum body from −∞ over the second axis, joined once more with −∞) is the
    specification's fold. -/
theorem rowmax_eq (hs : (⟨0, ![]⟩ : Shape).BroadcastsInDim ⟨1, ![E]⟩ ![])
    (hr' : (⟨2, ![E, N]⟩ : Shape).ReducesTo [1] (⟨1, ![E]⟩ : Shape)) (hr : (⟨2, ![E, N]⟩ : Shape).Reduces [1] (⟨1, ![E]⟩ : Shape))
    (hu : 0 < (⟨0, ![]⟩ : Shape).numel) (y : FVec Ideal ⟨2, ![E, N]⟩ .f32) (p : Fin E) :
    (maximumf (broadcastInDim ⟨1, ![E]⟩ ![] hs (constant ⟨0, ![]⟩ .f32 0xFF800000#32)) (Host.reduce FloatOps.maximumf y (constant ⟨0, ![]⟩ .f32 0xFF800000#32) hr' hu)) (ix1 p) = Spec.rowmax y p := by
  show FloatOps.maximumf (broadcastInDim ⟨1, ![E]⟩ ![] hs (constant ⟨0, ![]⟩ .f32 0xFF800000#32) (ix1 p))
      (Host.reduce FloatOps.maximumf y (constant ⟨0, ![]⟩ .f32 0xFF800000#32) hr' hu (ix1 p)) = _
  rw [bscalar_apply, Host.reduce_eq_fold_single FloatOps.maximumf y _ hr' hr hu]
  show max (Ideal.ofBits .f32 0xFF800000#32)
      ((Finset.univ : Finset (Fin N)).fold max (Ideal.ofBits .f32 0xFF800000#32) (y ∘ hr.lift (ix1 p))) = _
  rw [ofBits_neg_inf, max_bot_left]
  unfold Spec.rowmax
  exact congrArg (fun f => Finset.fold max (⊥ : EReal) f (Finset.univ : Finset (Fin N)))
    (funext fun k => congrArg y (lift_row hr p k))

/-- The row-wise log-softmax: subtract the row maximum, exponentiate, sum the row from zero, take the logarithm,
    subtract it. -/
theorem lsm_eq (hs : (⟨0, ![]⟩ : Shape).BroadcastsInDim ⟨1, ![E]⟩ ![])
    (hc : (⟨1, ![E]⟩ : Shape).BroadcastsInDim ⟨2, ![E, 1]⟩ ![0])
    (hb : (⟨2, ![E, 1]⟩ : Shape).BroadcastsInDim ⟨2, ![E, N]⟩ ![0, 1])
    (hr' : (⟨2, ![E, N]⟩ : Shape).ReducesTo [1] (⟨1, ![E]⟩ : Shape)) (hr : (⟨2, ![E, N]⟩ : Shape).Reduces [1] (⟨1, ![E]⟩ : Shape))
    (hu : 0 < (⟨0, ![]⟩ : Shape).numel) (y : FVec Ideal ⟨2, ![E, N]⟩ .f32) :
    subf (subf y (broadcastInDim ⟨2, ![E, N]⟩ ![0, 1] hb (broadcastInDim ⟨2, ![E, 1]⟩ ![0] hc (maximumf (broadcastInDim ⟨1, ![E]⟩ ![] hs (constant ⟨0, ![]⟩ .f32 0xFF800000#32)) (Host.reduce FloatOps.maximumf y (constant ⟨0, ![]⟩ .f32 0xFF800000#32) hr' hu))))) (broadcastInDim ⟨2, ![E, N]⟩ ![0, 1] hb (Host.log (broadcastInDim ⟨2, ![E, 1]⟩ ![0] hc (Host.reduceAdd (Host.exp (subf y (broadcastInDim ⟨2, ![E, N]⟩ ![0, 1] hb (broadcastInDim ⟨2, ![E, 1]⟩ ![0] hc (maximumf (broadcastInDim ⟨1, ![E]⟩ ![] hs (constant ⟨0, ![]⟩ .f32 0xFF800000#32)) (Host.reduce FloatOps.maximumf y (constant ⟨0, ![]⟩ .f32 0xFF800000#32) hr' hu)))))) (constant ⟨0, ![]⟩ .f32 0x00000000#32) hr' hu))))
      = Spec.lsm y := by
  have hsub : ∀ (p : Fin E) (q : Fin N),
      (subf y (broadcastInDim ⟨2, ![E, N]⟩ ![0, 1] hb (broadcastInDim ⟨2, ![E, 1]⟩ ![0] hc (maximumf (broadcastInDim ⟨1, ![E]⟩ ![] hs (constant ⟨0, ![]⟩ .f32 0xFF800000#32)) (Host.reduce FloatOps.maximumf y (constant ⟨0, ![]⟩ .f32 0xFF800000#32) hr' hu))))
        : FVec Ideal ⟨2, ![E, N]⟩ .f32) (ix2 p q) = y (ix2 p q) - Spec.rowmax y p := by
    intro p q
    show FloatOps.subf (y (ix2 p q)) (broadcastInDim ⟨2, ![E, N]⟩ ![0, 1] hb (broadcastInDim ⟨2, ![E, 1]⟩ ![0] hc (maximumf (broadcastInDim ⟨1, ![E]⟩ ![] hs (constant ⟨0, ![]⟩ .f32 0xFF800000#32)) (Host.reduce FloatOps.maximumf y (constant ⟨0, ![]⟩ .f32 0xFF800000#32) hr' hu))) (ix2 p q)) = _
    rw [bcol_apply, bvecCol_apply, rowmax_eq hs hr' hr hu y p]
    rfl
  funext j
  obtain ⟨p, q, rfl⟩ : ∃ p q, j = ix2 p q := ⟨j 0, j 1, eq_ix2 j⟩
  generalize hZ : (subf y (broadcastInDim ⟨2, ![E, N]⟩ ![0, 1] hb (broadcastInDim ⟨2, ![E, 1]⟩ ![0] hc (maximumf (broadcastInDim ⟨1, ![E]⟩ ![] hs (constant ⟨0, ![]⟩ .f32 0xFF800000#32)) (Host.reduce FloatOps.maximumf y (constant ⟨0, ![]⟩ .f32 0xFF800000#32) hr' hu))))
        : FVec Ideal ⟨2, ![E, N]⟩ .f32) = z at hsub
  show FloatOps.subf (z (ix2 p q)) (broadcastInDim ⟨2, ![E, N]⟩ ![0, 1] hb (Host.log (broadcastInDim ⟨2, ![E, 1]⟩ ![0] hc
      (Host.reduceAdd (Host.exp z) (constant ⟨0, ![]⟩ .f32 0x00000000#32) hr' hu))) (ix2 p q)) = _
  rw [bcol_apply]
  show FloatOps.subf (z (ix2 p q)) (FloatOps.hostUnary .log (broadcastInDim ⟨2, ![E, 1]⟩ ![0] hc
      (Host.reduceAdd (Host.exp z) (constant ⟨0, ![]⟩ .f32 0x00000000#32) hr' hu) (ix2 p 0))) = _
  rw [bvecCol_apply]
  show z (ix2 p q) - Ideal.log (Ideal.hostReduceAdd hr' (Host.exp z) (Ideal.ofBits .f32 0x00000000#32) (ix1 p)) = _
  rw [Ideal.hostReduceAdd_single hr' hr, Ideal.ofBits_zero_f32, zero_add, hsub p q]
  unfold Spec.lsm
  show _ = (y (ix2 p q) - Spec.rowmax y p) - Ideal.log (∑ r : Fin N, Ideal.exp (y (ix2 p r) - Spec.rowmax y p))
  refine congrArg (fun s => (y (ix2 p q) - Spec.rowmax y p) - Ideal.log s) ?_
  refine Finset.sum_congr rfl fun k _ => ?_
  rw [lift_row hr p k]
  show Ideal.exp (z (ix2 p ⟨k.val, k.isLt⟩)) = _
  rw [hsub p ⟨k.val, k.isLt⟩]
  rfl

end Softmax

/-! ## The stretches at the program's shapes, spelled as the reference's term prints them -/

theorem msg64 (xj : FVec Ideal S1600000x64 .f32) (a : FVec Ideal S1600000x1 .f32) (wm bm : FVec Ideal S64x64 .f32) :
    addf (mulf (broadcastInDim S1600000x64 ![0, 1] bcast_S1600000x1_S1600000x64_0_1 a) (Host.dotGeneral dot_S1600000x64_S64x64_S1600000x64_1_0_0_1_n_n none xj wm)) (Host.dotGeneral dot_S1600000x64_S64x64_S1600000x64_1_0_0_1_n_n none xj bm)
      = Spec.msg xj a wm bm :=
  msg_eq bcast_S1600000x1_S1600000x64_0_1 dot_S1600000x64_S64x64_S1600000x64_1_0_0_1_n_n rfl xj a wm bm

theorem msg4 (xj : FVec Ideal S1600000x64 .f32) (a : FVec Ideal S1600000x1 .f32) (wm bm : FVec Ideal S64x4 .f32) :
    addf (mulf (broadcastInDim S1600000x4 ![0, 1] bcast_S1600000x1_S1600000x4_0_1 a) (Host.dotGeneral dot_S1600000x64_S64x4_S1600000x4_1_0_0_1_n_n none xj wm)) (Host.dotGeneral dot_S1600000x64_S64x4_S1600000x4_1_0_0_1_n_n none xj bm)
      = Spec.msg xj a wm bm :=
  msg_eq bcast_S1600000x1_S1600000x4_0_1 dot_S1600000x64_S64x4_S1600000x4_1_0_0_1_n_n rfl xj a wm bm

theorem lin64 (agg x : FVec Ideal S100000x64 .f32) (w : FVec Ideal S64x64 .f32) (b : FVec Ideal S64 .f32) :
    addf (addf agg (Host.dotGeneral dot_S100000x64_S64x64_S100000x64_1_0_0_1_n_n none x w)) (broadcastInDim S100000x64 ![0, 1] bcast_S1x64_S100000x64_0_1 (broadcastInDim S1x64 ![1] bcast_S64_S1x64_1 b))
      = Spec.lin agg x w b :=
  lin_eq bcast_S64_S1x64_1 bcast_S1x64_S100000x64_0_1 dot_S100000x64_S64x64_S100000x64_1_0_0_1_n_n rfl agg x w b

theorem lin4 (agg : FVec Ideal S100000x4 .f32) (x : FVec Ideal S100000x64 .f32) (w : FVec Ideal S64x4 .f32) (b : FVec Ideal S4 .f32) :
    addf (addf agg (Host.dotGeneral dot_S100000x64_S64x4_S100000x4_1_0_0_1_n_n none x w)) (broadcastInDim S100000x4 ![0, 1] bcast_S1x4_S100000x4_0_1 (broadcastInDim S1x4 ![1] bcast_S4_S1x4_1 b))
      = Spec.lin agg x w b :=
  lin_eq bcast_S4_S1x4_1 bcast_S1x4_S100000x4_0_1 dot_S100000x64_S64x4_S100000x4_1_0_0_1_n_n rfl agg x w b

theorem relu64 (y : FVec Ideal S100000x64 .f32) :
    maximumf y (broadcastInDim S100000x64 ![] bcast_S_S100000x64 (constant S_ .f32 0x00000000#32)) = Spec.relu y :=
  relu_eq bcast_S_S100000x64 y

theorem lsm4 (y : FVec Ideal S100000x4 .f32) :
    subf (subf y (broadcastInDim S100000x4 ![0, 1] bcast_S100000x1_S100000x4_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x4_S100000_d1 h_S_))))) (broadcastInDim S100000x4 ![0, 1] bcast_S100000x1_S100000x4_0_1 (Host.log (broadcastInDim S100000x1 ![0] bcast_S100000_S100000x1_0 (Host.reduceAdd (Host.exp (subf y (broadcastInDim S100000x4 ![0, 1] bcast_S100000x1_S100000x4_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x4_S100000_d1 h_S_)))))) (constant S_ .f32 0x00000000#32) reducesTo_S100000x4_S100000_d1 h_S_))))
      = Spec.lsm y :=
  lsm_eq bcast_S_S100000 bcast_S100000_S100000x1_0 bcast_S100000x1_S100000x4_0_1 reducesTo_S100000x4_S100000_d1 (by decide) h_S_ y

/-! ## The reference's result -/

/-- The reference's result is the three-layer network of the specification, over the host's gather and node sums. -/
theorem res_eq_net (m : (ℓ : Loc nD τ sig) → Buf (Elt Ideal) ℓ) (c : Dev nD) :
    Cert.ReferenceIdeal.RunP.res_main_v72 (F := Ideal) m c
      = Net.net (Nn := 100000) (Ne := 1600000) (K := 64) (N := 4) (gat (m ((c.tc : Thread nD τ).loc main_arg1))) (sca (m ((c.tc : Thread nD τ).loc main_arg1))) (sca' (m ((c.tc : Thread nD τ).loc main_arg1)))
          (m ((c.tc : Thread nD τ).loc main_arg0)) (m ((c.tc : Thread nD τ).loc main_arg2))
          (shapeCast _ (m ((c.tc : Thread nD τ).loc main_arg3)) shapeCasts_S4096_S64x64) (shapeCast _ (m ((c.tc : Thread nD τ).loc main_arg4)) shapeCasts_S4096_S64x64) (m ((c.tc : Thread nD τ).loc main_arg5)) (m ((c.tc : Thread nD τ).loc main_arg6))
          (shapeCast _ (m ((c.tc : Thread nD τ).loc main_arg7)) shapeCasts_S4096_S64x64) (shapeCast _ (m ((c.tc : Thread nD τ).loc main_arg8)) shapeCasts_S4096_S64x64) (m ((c.tc : Thread nD τ).loc main_arg9)) (m ((c.tc : Thread nD τ).loc main_arg10))
          (shapeCast _ (m ((c.tc : Thread nD τ).loc main_arg11)) shapeCasts_S256_S64x4) (shapeCast _ (m ((c.tc : Thread nD τ).loc main_arg12)) shapeCasts_S256_S64x4) (m ((c.tc : Thread nD τ).loc main_arg13)) (m ((c.tc : Thread nD τ).loc main_arg14)) := by
  unfold RunP.res_main_v72
  rw [lsm4, lin4, msg4, relu64, lin64, msg64, relu64, lin64, msg64]
  rfl

/-- Every weakly fair execution of the reference ends with its result at the network's value, its arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72)
        = Net.net (Nn := 100000) (Ne := 1600000) (K := 64) (N := 4) (gat (m ((c.tc : Thread nD τ).loc main_arg1))) (sca (m ((c.tc : Thread nD τ).loc main_arg1))) (sca' (m ((c.tc : Thread nD τ).loc main_arg1)))
          (m ((c.tc : Thread nD τ).loc main_arg0)) (m ((c.tc : Thread nD τ).loc main_arg2))
          (shapeCast _ (m ((c.tc : Thread nD τ).loc main_arg3)) shapeCasts_S4096_S64x64) (shapeCast _ (m ((c.tc : Thread nD τ).loc main_arg4)) shapeCasts_S4096_S64x64) (m ((c.tc : Thread nD τ).loc main_arg5)) (m ((c.tc : Thread nD τ).loc main_arg6))
          (shapeCast _ (m ((c.tc : Thread nD τ).loc main_arg7)) shapeCasts_S4096_S64x64) (shapeCast _ (m ((c.tc : Thread nD τ).loc main_arg8)) shapeCasts_S4096_S64x64) (m ((c.tc : Thread nD τ).loc main_arg9)) (m ((c.tc : Thread nD τ).loc main_arg10))
          (shapeCast _ (m ((c.tc : Thread nD τ).loc main_arg11)) shapeCasts_S256_S64x4) (shapeCast _ (m ((c.tc : Thread nD τ).loc main_arg12)) shapeCasts_S256_S64x4) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (res_eq_net m c), (h c).2⟩) (RunP.run (F := Ideal) m ρ)

end Cert.ReferenceIdeal.RefValue

end
-- ==== Proof.lean ====
/-
  Three stacked edge-conditioned graph-convolution layers on 100,000 nodes and 1,600,000 edges, widths 64 → 64 → 64 → 4.
  Per layer: every edge reads its source node's row, forms the message  a(e) · (row · Wm) + row · Bm  from its scalar
  a(e), the messages are summed into their target nodes, and a node's new row is that sum plus  row · Wr  plus a bias;
  rows pass through max(·, 0) between layers, and through the row-wise log-softmax at the end.

  The kernel's program computes the messages and the node updates in six tiled launches (10,000 rows a block) with the
  gather and the sum into nodes on the host; the reference computes everything on the host. On the extended reals both
  are ONE function of the arguments, the network `Cert.Net.net` over the shared specification `Cert.Spec`:
    · each launch leaves in its output array the specification's function of the arrays it finds (a product of a
      block of rows with a whole weight array is the block of the whole product; changes of float format are the
      identity; a row's maximum and its sum of exponentials stay inside the row's block);
    · the host operations between the launches are read boundary by boundary back to the arguments;
    · the reference's composed term is the same network, operation by operation;
    · the gather and the sum into nodes are the same host operations in both programs and are never opened.
  The one difference between the programs is `jnp.take`'s mask on the kernel's side, which replaces a source row by a
  fill value where the source index is out of range, while the reference's indexing clamps such an index. The
  precondition therefore asks, besides finite float inputs, that every source index lie in [0, 100000) — outside it
  the reference indexes out of range —, and then the mask is all ones and the two gathers agree.
-/
import proofs.«429120_j77498389889734_1_alg».proof.Defs
import proofs.«429120_j77498389889734_1_alg».proof.Proof.Gen.Kernel
import proofs.«429120_j77498389889734_1_alg».proof.Proof.Gen.Kernel.Frame
import proofs.«429120_j77498389889734_1_alg».proof.Proof.Gen.KernelIdeal
import proofs.«429120_j77498389889734_1_alg».proof.Proof.Gen.KernelIdeal.Frame
import proofs.«429120_j77498389889734_1_alg».proof.Proof.Gen.ReferenceIdeal
import proofs.«429120_j77498389889734_1_alg».proof.Proof.Gen.Pre_finite_inputs
import proofs.«429120_j77498389889734_1_alg».proof.Proof.KValue
import proofs.«429120_j77498389889734_1_alg».proof.Proof.RefValue

set_option maxRecDepth 65536

noncomputable section

namespace Cert.Proof

open Idealize.ShloMosaic Idealize.SL.Sem

/-- The kernel's program as printed runs and leaves its arguments alone: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- From memories agreeing on the arguments, under the precondition, both programs end with the network's value
    of the kernel's arguments in their result buffers: the kernel's by its run (the source indices are in range by
    the precondition), the reference's by its run rewritten along the agreement; the two networks' host pieces are
    the same operations over the same literal shapes. -/
theorem algebraic : Cert.algebraic_KernelIdeal_ReferenceIdeal := by
  intro m ρ m' ρ' hpre hagree
  refine ⟨fun c => Cert.KernelIdeal.KValue.value m c,
    Cert.KernelIdeal.KValue.run m ρ (fun c => Cert.KernelIdeal.Parts.inRange_of_pre m hpre c), ?_⟩
  refine (θ_run Cert.ReferenceIdeal.defs _ _).mono (fun _ h c => ⟨(h c).1.trans ?_, (h c).2⟩)
    (Cert.ReferenceIdeal.RefValue.run_net m' ρ')
  obtain ⟨h0, h1, h2, h3, h4, h5, h6, h7, h8, h9, h10, h11, h12, h13, h14⟩ := hagree c
  rw [h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
